-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x64 : Shape := ⟨2, ![8192, 64]⟩
abbrev S8192x8192 : Shape := ⟨2, ![8192, 8192]⟩
abbrev S4096x4096 : Shape := ⟨2, ![4096, 4096]⟩
abbrev S4096x8192 : Shape := ⟨2, ![4096, 8192]⟩
abbrev S128x128 : Shape := ⟨2, ![128, 128]⟩
abbrev S1x64 : Shape := ⟨2, ![1, 64]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S128x128 : S_.BroadcastsInDim S128x128 (![] : Fin 0 → Fin S128x128.rank)
  reducesTo_S128x128_S_d0_1 : S128x128.ReducesTo [0, 1] S_
  bcast_S_S1x64 : S_.BroadcastsInDim S1x64 (![] : Fin 0 → Fin S1x64.rank)
  reducesTo_S1x64_S_d0_1 : S1x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S4096x8192 .f32) (main_arg5 : FVec F S128x128 .f32) (main_arg6 : FVec F S1x64 .f32) (main_arg7 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S8192x64 .f32) (main_arg2 : FVec F S8192x8192 .f32) (main_arg3 : FVec F S4096x4096 .f32) (main_arg4 : FVec F S4096x8192 .f32) (main_arg5 : FVec F S128x128 .f32) (main_arg6 : FVec F S1x64 .f32) (main_arg7 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x128 : Shape := ⟨2, ![4096, 128]⟩
abbrev S8192x64 : Shape := ⟨2, ![8192, 64]⟩
abbrev S8192x8192 : Shape := ⟨2, ![8192, 8192]⟩
abbrev S4096x4096 : Shape := ⟨2, ![4096, 4096]⟩
abbrev S4096x8192 : Shape := ⟨2, ![4096, 8192]⟩
abbrev S128x128 : Shape := ⟨2, ![128, 128]⟩
abbrev S1x64 : Shape := ⟨2, ![1, 64]⟩
abbrev S128 : Shape := ⟨1, ![128]⟩
abbrev S64x1 : Shape := ⟨2, ![64, 1]⟩
abbrev S8192x1 : Shape := ⟨2, ![8192, 1]⟩
abbrev S8192 : Shape := ⟨1, ![8192]⟩
abbrev S1x8192 : Shape := ⟨2, ![1, 8192]⟩
abbrev S1x128 : Shape := ⟨2, ![1, 128]⟩
abbrev S1024x512 : Shape := ⟨2, ![1024, 512]⟩
abbrev S1x512 : Shape := ⟨2, ![1, 512]⟩
abbrev S1024x1024 : Shape := ⟨2, ![1024, 1024]⟩
abbrev S512x1024 : Shape := ⟨2, ![512, 1024]⟩
abbrev S1024x128 : Shape := ⟨2, ![1024, 128]⟩

abbrev nBuf : Space → Nat
  | .hbm => 16
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S8192x64, .f32⟩
  | .hbm, ⟨2, _⟩ => ⟨S8192x8192, .f32⟩
  | .hbm, ⟨3, _⟩ => ⟨S4096x4096, .f32⟩
  | .hbm, ⟨4, _⟩ => ⟨S4096x8192, .f32⟩
  | .hbm, ⟨5, _⟩ => ⟨S128x128, .f32⟩
  | .hbm, ⟨6, _⟩ => ⟨S1x64, .f32⟩
  | .hbm, ⟨7, _⟩ => ⟨S128, .f32⟩
  | .hbm, ⟨8, _⟩ => ⟨S64x1, .f32⟩
  | .hbm, ⟨9, _⟩ => ⟨S8192x1, .f32⟩
  | .hbm, ⟨10, _⟩ => ⟨S8192, .f32⟩
  | .hbm, ⟨11, _⟩ => ⟨S1x8192, .f32⟩
  | .hbm, ⟨12, _⟩ => ⟨S4096x128, .f32⟩
  | .hbm, ⟨13, _⟩ => ⟨S1x128, .f32⟩
  | .hbm, ⟨14, _⟩ => ⟨S4096x4096, .f32⟩
  | .hbm, ⟨15, _⟩ => ⟨S4096x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1x64_S64x1_1_0 : S1x64.Transposes [1, 0] S64x1
  shapeCasts_S8192x1_S8192 : S8192x1.ShapeCasts S8192
  shapeCasts_S8192_S1x8192 : S8192.ShapeCasts S1x8192
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  bitsLt_bf16_f32 : FTy.bits .bf16 < FTy.bits .f32
  transposes_S1024x512_p1_0_S512x1024 : S1024x512.Transposes [1, 0] S512x1024
  iota_S1024x1024_d0_w32 : S1024x1024.Iotas .tc 32 [0]
  iota_S1024x1024_d1_w32 : S1024x1024.Iotas .tc 32 [1]
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S8192x64_S64x1_S8192x1_1_0_0_1_n_n_wf : DotDims.WF S8192x64 S64x1 S8192x1 [1] [0] [0] [1] [] []
  dot_S4096x128_S128x128_S4096x128_1_0_0_1_n_n_wf : DotDims.WF S4096x128 S128x128 S4096x128 [1] [0] [0] [1] [] []
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x8192.size a
  hwx0_0 : ∀ i : grid0.Coords, EltTy.bits .f32 = 32 ∨ (Rect.block (s := S4096x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x8192.size a
  hwx0_1 : ∀ i : grid0.Coords, EltTy.bits .f32 = 32 ∨ (Rect.block (s := S4096x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x64 : Shape := ⟨2, ![8192, 64]⟩
abbrev S8192x8192 : Shape := ⟨2, ![8192, 8192]⟩
abbrev S4096x4096 : Shape := ⟨2, ![4096, 4096]⟩
abbrev S4096x8192 : Shape := ⟨2, ![4096, 8192]⟩
abbrev S128x128 : Shape := ⟨2, ![128, 128]⟩
abbrev S1x64 : Shape := ⟨2, ![1, 64]⟩
abbrev S128 : Shape := ⟨1, ![128]⟩
abbrev S64x1 : Shape := ⟨2, ![64, 1]⟩
abbrev S8192x1 : Shape := ⟨2, ![8192, 1]⟩
abbrev S8192 : Shape := ⟨1, ![8192]⟩
abbrev S1x8192 : Shape := ⟨2, ![1, 8192]⟩
abbrev S8192x4096 : Shape := ⟨2, ![8192, 4096]⟩
abbrev S_ : Shape := ⟨0, ![]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x64, .f32⟩
  | .hbm, ⟨2, _⟩ => ⟨S8192x8192, .f32⟩
  | .hbm, ⟨3, _⟩ => ⟨S4096x4096, .f32⟩
  | .hbm, ⟨4, _⟩ => ⟨S4096x8192, .f32⟩
  | .hbm, ⟨5, _⟩ => ⟨S128x128, .f32⟩
  | .hbm, ⟨6, _⟩ => ⟨S1x64, .f32⟩
  | .hbm, ⟨7, _⟩ => ⟨S128, .f32⟩
  | .hbm, ⟨8, _⟩ => ⟨S64x1, .f32⟩
  | .hbm, ⟨9, _⟩ => ⟨S8192x1, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S8192x4096, .f32⟩
  | .hbm, ⟨15, _⟩ => ⟨S4096x4096, .f32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x128, .f32⟩
  | .hbm, ⟨30, _⟩ => ⟨S4096x128, .f32⟩
  | .hbm, ⟨31, _⟩ => ⟨S1x128, .f32⟩
  | .hbm, ⟨32, _⟩ => ⟨S4096x128, .f32⟩
  | .hbm, ⟨33, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S1x64_S64x1_1_0 : S1x64.Transposes [1, 0] S64x1
  shapeCasts_S8192x1_S8192 : S8192x1.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S4096x8192_S8192x4096_1_0 : S4096x8192.Transposes [1, 0] S8192x4096
  bcast_S_S4096x4096 : S_.BroadcastsInDim S4096x4096 (![] : Fin 0 → Fin S4096x4096.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S8192x64_S64x1_S8192x1_1_0_0_1_n_n_wf : DotDims.WF S8192x64 S64x1 S8192x1 [1] [0] [0] [1] [] []
  dot_S4096x8192_S8192x4096_S4096x4096_1_0_0_1_n_n_wf : DotDims.WF S4096x8192 S8192x4096 S4096x4096 [1] [0] [0] [1] [] []
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KI.AdjAData.lean ====
/-
  The first kernel call computes  adjusted_A = (1 on the diagonal, (T · diag d · Tᵀ) off it) ∘ adj_v  one
  1024 × 1024 block at a time.  Its grid is 4 × 4 × 16: point t = 64·i + 16·j + k handles the block (i, j) of
  the result and the k-th block of 512 columns of T.  The array T is read through two windows at once — rows
  block i (the left factor, scaled by d) and rows block j (the right factor, transposed) —, each holding half
  of the read permission.  A scratch buffer of 1024 × 1024 carries the partial sums: reset to zero before the
  block product is added at k = 0, added to at every other k; at k = 15 the diagonal entries are replaced by 1,
  the block is multiplied entrywise by adj_v's block and stored into the output block, written back only there.

  This module states, for region-entry contents V of the buffers, what each staging buffer and the scratch hold
  after the body at every point, as explicit functions of the arrays' blocks (the skeleton's payloads k0_pay1 —
  zeros —, k0_pay2 — partial sum plus block product —, k0_pay3 — the masked product with adj_v), and bundles
  them as the pipeline's proof data.
-/
import proofs.«131495_j12627203850541_1_alg».proof.Proof.Gen.KernelIdeal.Launch
import proofs.«131495_j12627203850541_1_alg».proof.Proof.Gen.KernelIdeal.Skeleton
import proofs.«131495_j12627203850541_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AdjA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- T's rows block i, columns block k. -/
abbrev lblk (c : Dev nD) (t : Fin cfg0.N) : Vec F S1024x512 .f32 := iblk V c 0 t
/-- T's rows block j, columns block k. -/
abbrev rblk (c : Dev nD) (t : Fin cfg0.N) : Vec F S1024x512 .f32 := iblk V c 1 t
/-- d's block k, as a row. -/
abbrev dblk (c : Dev nD) (t : Fin cfg0.N) : Vec F S1x512 .f32 := iblk V c 2 t
/-- adj_v's block (i, j). -/
abbrev vblk (c : Dev nD) (t : Fin cfg0.N) : Vec F S1024x1024 .f32 := iblk V c 3 t

/-! ## What the scratch and the output block hold after each point -/

/-- The partial sums in the scratch after point n: the block product of point n added to zeros when n starts a
    result block (n ≡ 0 mod 16), and to what point n − 1 left otherwise. -/
def acc (c : Dev nD) : (n : ℕ) → n < cfg0.N → Vec F S1024x1024 .f32
  | 0, hn => k0_pay2 (dblk V c ⟨0, hn⟩) (lblk V c ⟨0, hn⟩) (rblk V c ⟨0, hn⟩) (k0_pay1 (F := F))
  | n + 1, hn => k0_pay2 (dblk V c ⟨n + 1, hn⟩) (lblk V c ⟨n + 1, hn⟩) (rblk V c ⟨n + 1, hn⟩)
      (if (n + 1) % 16 = 0 then (k0_pay1 (F := F)) else acc c n (Nat.lt_of_succ_lt hn))

theorem acc_first (c : Dev nD) (t : Fin cfg0.N) (h : t.val % 16 = 0) :
    acc V c t.val t.isLt = k0_pay2 (dblk V c t) (lblk V c t) (rblk V c t) (k0_pay1 (F := F)) := by
  obtain ⟨n, hn⟩ := t
  cases n with
  | zero => rfl
  | succ n => show k0_pay2 _ _ _ (if (n + 1) % 16 = 0 then _ else _) = _; rw [if_pos h]

theorem acc_next (c : Dev nD) (t : Fin cfg0.N) (h : ¬t.val % 16 = 0) :
    acc V c t.val t.isLt = k0_pay2 (dblk V c t) (lblk V c t) (rblk V c t) (acc V c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 16 = 0 then _ else _) = _; rw [if_neg h]; rfl

/-- The output block the body stores at the last point of a result block: the diagonal replaced by 1 in the
    partial sums, times adj_v's block. (At the other points the body stores nothing there and the value is never
    consulted.) -/
def outb (c : Dev nD) (t : Fin cfg0.N) : Vec F S1024x1024 .f32 := k0_pay3 (grid0.coords t) (acc V c t.val t.isLt) (vblk V c t)

/-! ## The region's invariant -/

/-- The scratch accumulator as a memref. -/
abbrev scM : Memref sig .tc .vmem S1024x1024 .f32 := Memref.whole cc0_scratch0

/-- The scoped buffers the pipeline does not stage other than the accumulator, each at some contents, and the
    generator register at some state: what the body never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ r, prngReg c r))

/-- What the launch hands the region splits into the accumulator at some contents and the rest, -/
theorem PhiA_split (c : Dev nD) :
    (Pipeline.ΦA spec0 c : sProp 𝕄) ⊢ iprop((∃ d, owns (c : Thread nD τ) scM fullShare d) ∗ others (F := F) c) := by
  unfold Pipeline.ΦA others; rw [scopedRest0_eq]; simp only [scM, owns_whole]
  iintro ⟨⟨HS, H0, H1, H2, H3, H4, H5, H6, H7⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- and they join back. -/
theorem PhiA_join (c : Dev nD) :
    iprop((∃ d, owns (c : Thread nD τ) scM fullShare d) ∗ others (F := F) c) ⊢ (Pipeline.ΦA spec0 c : sProp 𝕄) := by
  unfold Pipeline.ΦA others; rw [scopedRest0_eq]; simp only [scM, owns_whole]
  iintro ⟨HS, H0, H1, H2, H3, H4, H5, H6, H7, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- The invariant before position n: at the start what the launch hands over; afterwards the accumulator at the
    partial sums point n − 1 left, beside the rest. -/
def PhiS (c : Dev nD) : (n : ℕ) → n ≤ cfg0.N → sProp 𝕄
  | 0, _ => Pipeline.ΦA spec0 c
  | n + 1, hn => iprop(owns (c : Thread nD τ) scM fullShare (acc V c n hn) ∗ others (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (acc V c n hn) ∗ others (F := F) c) := rfl

theorem PhiS_pos (c : Dev nD) (n : ℕ) (h : n ≤ cfg0.N) (hz : n ≠ 0) :
    PhiS V c n h = iprop(owns (c : Thread nD τ) scM fullShare (acc V c (n - 1) (by omega)) ∗ others (F := F) c) := by
  cases n with
  | zero => exact absurd rfl hz
  | succ n => rfl

/-! ## The pipeline's proof data -/

/-- The arrays as the region finds them; after the body each input's buffer at its block and the output's at
    outb; the invariant PhiS; nothing owed. The two windows on T each read it at half the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outb V c t
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outb V c t := by dsimp only [dat]

/-- Each input's current staging buffer holds its block at every point, whether the pipeline fetched it there or
    the block index has not moved since the last fetch. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the launch hands the region is the invariant before the first point, -/
theorem hin (c : Dev nD) : Pipeline.ΦA spec0 c ⊢ (dat V c).Φ 0 := by
  rw [show (dat V c).Φ 0 = PhiS V c 0 (Nat.zero_le _) from rfl, PhiS_zero V c 0 _ rfl]

/-- and after the last point the invariant gives it back, the accumulator's contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega)]
  refine .trans ?_ (PhiA_join c)
  iintro ⟨HS, Ho⟩
  isplitl [HS]; · iexists _; iexact HS
  iexact Ho

end Cert.KernelIdeal.AdjA

end
-- ==== Proof.KI.AdjABody.lean ====
/-
  The body of the first kernel call, run at each of its three kinds of grid point, and the pipeline's body
  obligation for the proof data of AdjAData: at the first block of 512 columns of T (k = 0) the accumulator is
  zeroed and the block product added; at a middle block the product is added to what the point before left; at
  the last block (k = 15) the product is added, the diagonal entries of the sum replaced by 1, the block multiplied
  entrywise by adj_v's block and stored into the output block.  Every load and store is of a whole staging
  buffer, so what a buffer holds afterwards is the payload of the last store into it.
-/
import proofs.«131495_j12627203850541_1_alg».proof.Proof.Gen.KernelIdeal.Launch
import proofs.«131495_j12627203850541_1_alg».proof.Proof.Gen.KernelIdeal.Skeleton
import proofs.«131495_j12627203850541_1_alg».proof.Proof.Gen.KernelIdeal.Points
import proofs.«131495_j12627203850541_1_alg».proof.Proof.KI.AdjAData
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AdjA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The body's first conditional: the point is the first of its result block (k = 0). -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)
/-- The second: it is the last (k = 15). -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The inputs are never idle; the output is idle, and not written back, exactly off the last block. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem idle_4 : ∀ t : Fin cfg0.N, ¬t.val % 16 = 15 → cfg0.idle 4 (grid0.coords t) = true := by decide +kernel
theorem noFlush_4 : ∀ t : Fin cfg0.N, ¬t.val % 16 = 15 → (cfg0.win 4).flush t = false := by decide +kernel
theorem live_4 : ∀ t : Fin cfg0.N, t.val % 16 = 15 → cfg0.idle 4 (grid0.coords t) = false := by decide +kernel

/-! ## The body's run, case by case -/

theorem hz2 : (![0, 0] : Fin 2 → ℕ) = fun _ => 0 := by funext a; fin_cases a <;> rfl

set_option maxHeartbeats 2000000 in
/-- First block of a result block: whatever the accumulator held, it ends at zeros plus the block product; the
    output buffer is not touched. -/
theorem run_first (c : Dev nD) (i : grid0.Coords) (E : Set ℕ)
    (arg3 : Memref sig .tc .vmem S1024x512 .f32) (harg3 : arg3.IsWhole) (arg4 : Memref sig .tc .vmem S1024x512 .f32) (harg4 : arg4.IsWhole)
    (arg5 : Memref sig .tc .vmem S1x512 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1024x1024 .f32) (harg8 : arg8.IsWhole)
    (x0 : Vec F S1024x512 .f32) (x1 : Vec F S1024x512 .f32) (x2 : Vec F S1x512 .f32) (x3 : Vec F S1024x1024 .f32) (K : PUnit → sProp 𝕄)
    (hc0 : isFirst i) (hc1 : ¬isLast i) (xo : Vec F S1024x1024 .f32) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo ∗ owns (c : Thread nD τ) arg8 fullShare (k0_pay2 x2 x0 x1 (k0_pay1 (F := F)))) -∗ K ⟨⟩))
      ⊢ wp frame (wpE (defs₀ (F := F)) Variants.none c none) E (cc0__adjusted_a_kernel i arg3 harg3 arg4 harg4 arg5 harg5 arg6 harg6 arg7 harg7 arg8 harg8) K := by
  simp only [cc0__adjusted_a_kernel_eq_skeleton]; unfold cc0__adjusted_a_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact H5
  ipureintro
  sl_unfold_words
  refine Eq.trans (View.read_writes_eq_canon _ _ _ ?_) ?_
  · intro y; exact ⟨_, List.mem_cons_self, by exact View.mem_set_unit_zero hz2 inb_S1024x1024_S1024x1024_0_0 y⟩
  rw [View.canon_cons_unit_zero (S := S1024x1024) hz2]
  simp only [View.readAt_eq_ld, View.ld_unit_zero (S := S1024x1024) hz2, View.ld_unit_zero (S := S1024x512) hz2, View.ld_unit_zero (S := S1x512) hz2,
    View.readCov_unit_zero (S := S1024x1024) _ hz2, View.readCov_cons_toLoadRect]

set_option maxHeartbeats 2000000 in
/-- A middle block: the block product is added to what the accumulator held; the output buffer is not touched. -/
theorem run_mid (c : Dev nD) (i : grid0.Coords) (E : Set ℕ)
    (arg3 : Memref sig .tc .vmem S1024x512 .f32) (harg3 : arg3.IsWhole) (arg4 : Memref sig .tc .vmem S1024x512 .f32) (harg4 : arg4.IsWhole)
    (arg5 : Memref sig .tc .vmem S1x512 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1024x1024 .f32) (harg8 : arg8.IsWhole)
    (x0 : Vec F S1024x512 .f32) (x1 : Vec F S1024x512 .f32) (x2 : Vec F S1x512 .f32) (x3 : Vec F S1024x1024 .f32) (K : PUnit → sProp 𝕄)
    (hc0 : ¬isFirst i) (hc1 : ¬isLast i) (xo : Vec F S1024x1024 .f32) (xs : Vec F S1024x1024 .f32) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo ∗ owns (c : Thread nD τ) arg8 fullShare (k0_pay2 x2 x0 x1 xs)) -∗ K ⟨⟩))
      ⊢ wp frame (wpE (defs₀ (F := F)) Variants.none c none) E (cc0__adjusted_a_kernel i arg3 harg3 arg4 harg4 arg5 harg5 arg6 harg6 arg7 harg7 arg8 harg8) K := by
  simp only [cc0__adjusted_a_kernel_eq_skeleton]; unfold cc0__adjusted_a_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact H5
  ipureintro
  sl_unfold_words
  refine Eq.trans (View.read_writes_eq_canon _ _ _ ?_) ?_
  · intro y; exact ⟨_, List.mem_cons_self, by exact View.mem_set_unit_zero hz2 inb_S1024x1024_S1024x1024_0_0 y⟩
  rw [View.canon_cons_unit_zero (S := S1024x1024) hz2]
  simp only [View.readAt_eq_ld, View.ld_unit_zero (S := S1024x1024) hz2, View.ld_unit_zero (S := S1024x512) hz2, View.ld_unit_zero (S := S1x512) hz2,
    View.readCov_unit_zero (S := S1024x1024) _ hz2, View.readCov_cons_toLoadRect]

set_option maxHeartbeats 2000000 in
/-- The last block: the block product is added to what the accumulator held; that sum with its diagonal set to 1,
    times adj_v's block, is stored into the output buffer, whatever it held. -/
theorem run_last (c : Dev nD) (i : grid0.Coords) (E : Set ℕ)
    (arg3 : Memref sig .tc .vmem S1024x512 .f32) (harg3 : arg3.IsWhole) (arg4 : Memref sig .tc .vmem S1024x512 .f32) (harg4 : arg4.IsWhole)
    (arg5 : Memref sig .tc .vmem S1x512 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1024x1024 .f32) (harg8 : arg8.IsWhole)
    (x0 : Vec F S1024x512 .f32) (x1 : Vec F S1024x512 .f32) (x2 : Vec F S1x512 .f32) (x3 : Vec F S1024x1024 .f32) (K : PUnit → sProp 𝕄)
    (hc0 : ¬isFirst i) (hc1 : isLast i) (xs : Vec F S1024x1024 .f32) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay3 i (k0_pay2 x2 x0 x1 xs) x3) ∗ owns (c : Thread nD τ) arg8 fullShare (k0_pay2 x2 x0 x1 xs)) -∗ K ⟨⟩))
      ⊢ wp frame (wpE (defs₀ (F := F)) Variants.none c none) E (cc0__adjusted_a_kernel i arg3 harg3 arg4 harg4 arg5 harg5 arg6 harg6 arg7 harg7 arg8 harg8) K := by
  simp only [cc0__adjusted_a_kernel_eq_skeleton]; unfold cc0__adjusted_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    sl_unfold_words
    refine Eq.trans (View.read_writes_eq_canon _ _ _ ?_) ?_
    · intro y; exact ⟨_, List.mem_cons_self, by exact View.mem_set_unit_zero hz2 inb_S1024x1024_S1024x1024_0_0 y⟩
    rw [View.canon_cons_unit_zero (S := S1024x1024) hz2]
    simp only [View.readAt_eq_ld, View.ld_unit_zero (S := S1024x1024) hz2, View.ld_unit_zero (S := S1024x512) hz2, View.ld_unit_zero (S := S1x512) hz2,
      View.readCov_unit_zero (S := S1024x1024) _ hz2, View.readCov_cons_toLoadRect]
  iexists _; isplitr
  swap; · iexact H5
  ipureintro
  sl_unfold_words
  refine Eq.trans (View.read_writes_eq_canon _ _ _ ?_) ?_
  · intro y; exact ⟨_, List.mem_cons_self, by exact View.mem_set_unit_zero hz2 inb_S1024x1024_S1024x1024_0_0 y⟩
  rw [View.canon_cons_unit_zero (S := S1024x1024) hz2]
  simp only [View.readAt_eq_ld, View.ld_unit_zero (S := S1024x1024) hz2, View.ld_unit_zero (S := S1024x512) hz2, View.ld_unit_zero (S := S1x512) hz2,
    View.readCov_unit_zero (S := S1024x1024) _ hz2, View.readCov_cons_toLoadRect]

/-! ## The body obligation -/

variable (V : (c : Dev nD) → (b : Ref sig .tc) → Buf (Elt F) ((c : Thread nD τ).loc b))

/-- Each window's current staging memref at point t, as the pipeline passes it to the body. -/
abbrev ms0 (t : Fin cfg0.N) : Memref sig .tc .vmem S1024x512 .f32 := win0_0.stage (cfg0.slots t 0)
abbrev ms1 (t : Fin cfg0.N) : Memref sig .tc .vmem S1024x512 .f32 := win0_1.stage (cfg0.slots t 1)
abbrev ms2 (t : Fin cfg0.N) : Memref sig .tc .vmem S1x512 .f32 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x1024 .f32 := win0_4.stage (cfg0.slots t 4)

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

/-- Before any point the invariant holds the accumulator at some contents, beside the rest; -/
theorem Phi_any (c : Dev nD) (t : Fin cfg0.N) :
    (dat V c).Φ t.castSucc ⊢ iprop((∃ d, owns (c : Thread nD τ) scM fullShare d) ∗ others (F := F) c) := by
  rw [Phi_castSucc]
  by_cases hz : t.val = 0
  · rw [PhiS_zero V c _ _ hz]; exact PhiA_split c
  · rw [PhiS_pos V c _ _ hz]
    iintro ⟨HS, Ho⟩
    isplitl [HS]; · iexists _; iexact HS
    iexact Ho

/-- before a point that is not the first, at the partial sums the point before left. -/
theorem Phi_prev (c : Dev nD) (t : Fin cfg0.N) (hz : t.val ≠ 0) :
    (dat V c).Φ t.castSucc = iprop(owns (c : Thread nD τ) scM fullShare (acc V c (t.val - 1) (Nat.lt_of_le_of_lt (Nat.sub_le _ _) t.isLt)) ∗ others (F := F) c) := by
  rw [Phi_castSucc, PhiS_pos V c _ _ hz]

set_option maxHeartbeats 4000000 in
/-- The body at any point: the inputs' buffers hold their blocks; the point's position in its result block says which
    of the three runs applies; the invariant hands over the accumulator and takes it back at this point's partial
    sums. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 256 := lt_of_lt_of_eq t.isLt (show cfg0.N = 256 from N_0)
  by_cases h0 : t.val % 16 = 0
  · have h1 : ¬t.val % 16 = 15 := by omega
    rw [Dat.leavesExact_idle (dat V c) 4 t (idle_4 t h1) (noFlush_4 t h1)]
    rw [acc_first V c t h0]
    iintro ⟨HΦ, Ho, ⟨%d0, H0⟩, ⟨%d1, H1⟩, ⟨%d2, H2⟩, ⟨%d3, H3⟩, ⟨%d4, H4⟩⟩
    ihave HΦ' := (Phi_any V c t) $$ HΦ
    icases HΦ' with ⟨HS, Hoth⟩
    iapply (run_first c (grid0.coords t) Set.univ _ _ _ _ _ _ _ _ _ _ _ _ (lblk V c t) (rblk V c t) (dblk V c t) (vblk V c t) _
      ((isFirst_iff t).mpr h0) (fun h => h1 ((isLast_iff t).mp h)) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth]
    · isplitl [HS]; · iexact HS
      iexact Hoth
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [acc_next V c t h0, Phi_prev V c t hz]
    by_cases h1 : t.val % 16 = 15
    · rw [show (dat V c).leavesExact 4 t = owns (c : Thread nD τ) (ms4 t) fullShare ((dat V c).after 4 t) from by
        unfold Dat.leavesExact; rw [live_4 t h1], after_4]
      unfold outb
      rw [acc_next V c t h0]
      iintro ⟨⟨HS, Hoth⟩, Ho, ⟨%d0, H0⟩, ⟨%d1, H1⟩, ⟨%d2, H2⟩, ⟨%d3, H3⟩, ⟨%d4, H4⟩⟩
      iapply (run_last c (grid0.coords t) Set.univ _ _ _ _ _ _ _ _ _ _ _ _ (lblk V c t) (rblk V c t) (dblk V c t) (vblk V c t) _
        (fun h => h0 ((isFirst_iff t).mp h)) ((isLast_iff t).mpr h1) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth]
      · isplitl [HS]; · iexact HS
        iexact Hoth
      isplitl [Ho]; · iexact Ho
      isplitl [H0]; · iexact H0
      isplitl [H1]; · iexact H1
      isplitl [H2]; · iexact H2
      isplitl [H3]; · iexact H3
      iexact H4
    · rw [Dat.leavesExact_idle (dat V c) 4 t (idle_4 t h1) (noFlush_4 t h1)]
      iintro ⟨⟨HS, Hoth⟩, Ho, ⟨%d0, H0⟩, ⟨%d1, H1⟩, ⟨%d2, H2⟩, ⟨%d3, H3⟩, ⟨%d4, H4⟩⟩
      iapply (run_mid c (grid0.coords t) Set.univ _ _ _ _ _ _ _ _ _ _ _ _ (lblk V c t) (rblk V c t) (dblk V c t) (vblk V c t) _
        (fun h => h0 ((isFirst_iff t).mp h)) (fun h => h1 ((isLast_iff t).mp h)) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth]
      · isplitl [HS]; · iexact HS
        iexact Hoth
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.AdjA

end
-- ==== Proof.KI.FinalData.lean ====
/-
  The second kernel call computes  out = adjusted_A · (H_v · weight) + bias  one block of 1024 rows at a time.
  Its grid is 4 × 4: point t = 4·i + k handles row block i and the k-th block of 1024 columns of adjusted_A
  (equally the k-th block of 1024 rows of H_v · weight).  A scratch buffer of 1024 × 128 carries the partial
  sums from one point to the next: at k = 0 it is reset to zero before the block product is added, at every
  other k the block product is added to what the point before left, and at k = 3 the bias row is added to it
  and the sum is stored into the output block, which is written back only there.

  This module states, for region-entry contents V of the buffers, what each staging buffer and the scratch hold
  after the body at every point, as explicit functions of the blocks of the arrays (the body's arithmetic is the
  skeleton's payloads k1_pay1 — zeros —, k1_pay2 — partial sum plus block product —, k1_pay3 — plus bias), and
  bundles them as the pipeline's proof data.
-/
import proofs.«131495_j12627203850541_1_alg».proof.Proof.Gen.KernelIdeal.Launch
import proofs.«131495_j12627203850541_1_alg».proof.Proof.Gen.KernelIdeal.Skeleton
import proofs.«131495_j12627203850541_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 1024 × 1024 block of adjusted_A at point t. -/
abbrev ablk (c : Dev nD) (t : Fin cfg1.N) : Vec F S1024x1024 .f32 := iblk V c 0 t
/-- The 1024 × 128 block of H_v · weight at point t. -/
abbrev hblk (c : Dev nD) (t : Fin cfg1.N) : Vec F S1024x128 .f32 := iblk V c 1 t
/-- The bias row. -/
abbrev bblk (c : Dev nD) (t : Fin cfg1.N) : Vec F S1x128 .f32 := iblk V c 2 t

/-! ## What the scratch and the output block hold after each point -/

/-- The partial sums in the scratch after point n: the block product of point n added to zeros when n starts a
    row block (n ≡ 0 mod 4), and to what point n − 1 left otherwise. -/
def acc (c : Dev nD) : (n : ℕ) → n < cfg1.N → Vec F S1024x128 .f32
  | 0, hn => k1_pay2 (ablk V c ⟨0, hn⟩) (hblk V c ⟨0, hn⟩) (k1_pay1 (F := F))
  | n + 1, hn => k1_pay2 (ablk V c ⟨n + 1, hn⟩) (hblk V c ⟨n + 1, hn⟩)
      (if (n + 1) % 4 = 0 then (k1_pay1 (F := F)) else acc c n (Nat.lt_of_succ_lt hn))

theorem acc_first (c : Dev nD) (t : Fin cfg1.N) (h : t.val % 4 = 0) :
    acc V c t.val t.isLt = k1_pay2 (ablk V c t) (hblk V c t) (k1_pay1 (F := F)) := by
  obtain ⟨n, hn⟩ := t
  cases n with
  | zero => rfl
  | succ n => show k1_pay2 _ _ (if (n + 1) % 4 = 0 then _ else _) = _; rw [if_pos h]

theorem acc_next (c : Dev nD) (t : Fin cfg1.N) (h : ¬t.val % 4 = 0) :
    acc V c t.val t.isLt = k1_pay2 (ablk V c t) (hblk V c t) (acc V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 4 = 0 then _ else _) = _; rw [if_neg h]; rfl

/-- The output block the body stores at the last point of a row block: the partial sums plus the bias row. (At the
    other points the body stores nothing there and the value is never consulted.) -/
def outb (c : Dev nD) (t : Fin cfg1.N) : Vec F S1024x128 .f32 := k1_pay3 (acc V c t.val t.isLt) (bblk V c t)

/-! ## The region's invariant -/

/-- The scratch accumulator as a memref. -/
abbrev scM : Memref sig .tc .vmem S1024x128 .f32 := Memref.whole cc1_scratch0

/-- The scoped buffers the pipeline does not stage other than the accumulator, each at some contents, and the
    generator register at some state: what the body never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ r, prngReg c r))

/-- What the launch hands the region splits into the accumulator at some contents and the rest, -/
theorem PhiA_split (c : Dev nD) :
    (Pipeline.ΦA spec1 c : sProp 𝕄) ⊢ iprop((∃ d, owns (c : Thread nD τ) scM fullShare d) ∗ others (F := F) c) := by
  unfold Pipeline.ΦA others; rw [scopedRest1_eq]; simp only [scM, owns_whole]
  iintro ⟨⟨H0, H1, H2, H3, H4, H5, H6, H7, H8, H9, H10, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hg

/-- and they join back. -/
theorem PhiA_join (c : Dev nD) :
    iprop((∃ d, owns (c : Thread nD τ) scM fullShare d) ∗ others (F := F) c) ⊢ (Pipeline.ΦA spec1 c : sProp 𝕄) := by
  unfold Pipeline.ΦA others; rw [scopedRest1_eq]; simp only [scM, owns_whole]
  iintro ⟨HS, H0, H1, H2, H3, H4, H5, H6, H7, H8, H9, H10, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-- The invariant before position n: at the start what the launch hands over; afterwards the accumulator at the
    partial sums point n − 1 left, beside the rest. -/
def PhiS (c : Dev nD) : (n : ℕ) → n ≤ cfg1.N → sProp 𝕄
  | 0, _ => Pipeline.ΦA spec1 c
  | n + 1, hn => iprop(owns (c : Thread nD τ) scM fullShare (acc V c n hn) ∗ others (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (acc V c n hn) ∗ others (F := F) c) := rfl

theorem PhiS_pos (c : Dev nD) (n : ℕ) (h : n ≤ cfg1.N) (hz : n ≠ 0) :
    PhiS V c n h = iprop(owns (c : Thread nD τ) scM fullShare (acc V c (n - 1) (by omega)) ∗ others (F := F) c) := by
  cases n with
  | zero => exact absurd rfl hz
  | succ n => rfl

/-! ## The pipeline's proof data -/

/-- The arrays as the region finds them; after the body each input's buffer at its block and the output's at
    outb; the invariant PhiS; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outb V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outb V c t := by dsimp only [dat]

/-- Each input's current staging buffer holds its block at every point, whether the pipeline fetched it there or
    the block index has not moved since the last fetch. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the launch hands the region is the invariant before the first point, -/
theorem hin (c : Dev nD) : Pipeline.ΦA spec1 c ⊢ (dat V c).Φ 0 := by
  rw [show (dat V c).Φ 0 = PhiS V c 0 (Nat.zero_le _) from rfl, PhiS_zero V c 0 _ rfl]

/-- and after the last point the invariant gives it back, the accumulator's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 16 := N_1; omega)]
  refine .trans ?_ (PhiA_join c)
  iintro ⟨HS, Ho⟩
  isplitl [HS]; · iexists _; iexact HS
  iexact Ho

end Cert.KernelIdeal.Final

end
-- ==== Proof.KI.FinalBody.lean ====
/-
  The body of the second kernel call, run at each of its three kinds of grid point, and the pipeline's body
  obligation for the proof data of FinalData: at the first column block of a row block (k = 0) the accumulator is
  zeroed and the block product added; at a middle block the product is added to what the point before left; at
  the last block (k = 3) the product is added, then the bias row, and the sum is stored into the output block.
  Every load and store is of a whole staging buffer, so what a buffer holds afterwards is the payload of the last
  store into it.
-/
import proofs.«131495_j12627203850541_1_alg».proof.Proof.Gen.KernelIdeal.Launch
import proofs.«131495_j12627203850541_1_alg».proof.Proof.Gen.KernelIdeal.Skeleton
import proofs.«131495_j12627203850541_1_alg».proof.Proof.Gen.KernelIdeal.Points
import proofs.«131495_j12627203850541_1_alg».proof.Proof.KI.FinalData
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The body's first conditional: the point is the first of its row block (k = 0). -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)
/-- The second: it is the last (k = 3). -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The inputs are never idle; the output is idle, and not written back, exactly off the last block. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬t.val % 4 = 3 → cfg1.idle 3 (grid1.coords t) = true := by decide +kernel
theorem noFlush_3 : ∀ t : Fin cfg1.N, ¬t.val % 4 = 3 → (cfg1.win 3).flush t = false := by decide +kernel
theorem live_3 : ∀ t : Fin cfg1.N, t.val % 4 = 3 → cfg1.idle 3 (grid1.coords t) = false := by decide +kernel

/-! ## The body's run, case by case -/

theorem hz2 : (![0, 0] : Fin 2 → ℕ) = fun _ => 0 := by funext a; fin_cases a <;> rfl

set_option maxHeartbeats 1000000 in
/-- First block of a row block: whatever the accumulator held, it ends at zeros plus the block product; the output
    buffer is not touched. -/
theorem run_first (c : Dev nD) (i : grid1.Coords) (E : Set ℕ)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (x0 : Vec F S1024x1024 .f32) (x1 : Vec F S1024x128 .f32) (x2 : Vec F S1x128 .f32) (K : PUnit → sProp 𝕄)
    (hc0 : isFirst i) (hc1 : ¬isLast i) (xo : Vec F S1024x128 .f32) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 x0 x1 (k1_pay1 (F := F)))) -∗ K ⟨⟩))
      ⊢ wp frame (wpE (defs₀ (F := F)) Variants.none c none) E (cc1__final_kernel i arg2 harg2 arg3 harg3 arg4 harg4 arg5 harg5 arg6 harg6) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact H4
  ipureintro
  sl_unfold_words
  refine Eq.trans (View.read_writes_eq_canon _ _ _ ?_) ?_
  · intro y; exact ⟨_, List.mem_cons_self, by exact View.mem_set_unit_zero hz2 inb_S1024x128_S1024x128_0_0 y⟩
  rw [View.canon_cons_unit_zero (S := S1024x128) hz2]
  simp only [View.readAt_eq_ld, View.ld_unit_zero (S := S1024x1024) hz2, View.ld_unit_zero (S := S1024x128) hz2, View.ld_unit_zero (S := S1x128) hz2,
    View.readCov_unit_zero (S := S1024x128) _ hz2, View.readCov_cons_toLoadRect]

set_option maxHeartbeats 1000000 in
/-- A middle block: the block product is added to what the accumulator held; the output buffer is not touched. -/
theorem run_mid (c : Dev nD) (i : grid1.Coords) (E : Set ℕ)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (x0 : Vec F S1024x1024 .f32) (x1 : Vec F S1024x128 .f32) (x2 : Vec F S1x128 .f32) (K : PUnit → sProp 𝕄)
    (hc0 : ¬isFirst i) (hc1 : ¬isLast i) (xo : Vec F S1024x128 .f32) (xs : Vec F S1024x128 .f32) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 x0 x1 xs)) -∗ K ⟨⟩))
      ⊢ wp frame (wpE (defs₀ (F := F)) Variants.none c none) E (cc1__final_kernel i arg2 harg2 arg3 harg3 arg4 harg4 arg5 harg5 arg6 harg6) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact H4
  ipureintro
  sl_unfold_words
  refine Eq.trans (View.read_writes_eq_canon _ _ _ ?_) ?_
  · intro y; exact ⟨_, List.mem_cons_self, by exact View.mem_set_unit_zero hz2 inb_S1024x128_S1024x128_0_0 y⟩
  rw [View.canon_cons_unit_zero (S := S1024x128) hz2]
  simp only [View.readAt_eq_ld, View.ld_unit_zero (S := S1024x1024) hz2, View.ld_unit_zero (S := S1024x128) hz2, View.ld_unit_zero (S := S1x128) hz2,
    View.readCov_unit_zero (S := S1024x128) _ hz2, View.readCov_cons_toLoadRect]

set_option maxHeartbeats 1000000 in
/-- The last block: the block product is added to what the accumulator held, and that sum plus the bias row is
    stored into the output buffer, whatever it held. -/
theorem run_last (c : Dev nD) (i : grid1.Coords) (E : Set ℕ)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole)
    (x0 : Vec F S1024x1024 .f32) (x1 : Vec F S1024x128 .f32) (x2 : Vec F S1x128 .f32) (K : PUnit → sProp 𝕄)
    (hc0 : ¬isFirst i) (hc1 : isLast i) (xs : Vec F S1024x128 .f32) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__final_kernel i arg2 harg2 arg3 harg3 arg4 harg4 arg5 harg5 arg6 harg6) K := by
  simp only [cc1__final_kernel_eq_skeleton]; unfold cc1__final_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    sl_unfold_words
    refine Eq.trans (View.read_writes_eq_canon _ _ _ ?_) ?_
    · intro y; exact ⟨_, List.mem_cons_self, by exact View.mem_set_unit_zero hz2 inb_S1024x128_S1024x128_0_0 y⟩
    rw [View.canon_cons_unit_zero (S := S1024x128) hz2]
    simp only [View.readAt_eq_ld, View.ld_unit_zero (S := S1024x1024) hz2, View.ld_unit_zero (S := S1024x128) hz2, View.ld_unit_zero (S := S1x128) hz2,
      View.readCov_unit_zero (S := S1024x128) _ hz2, View.readCov_cons_toLoadRect]
  iexists _; isplitr
  swap; · iexact H4
  ipureintro
  sl_unfold_words
  refine Eq.trans (View.read_writes_eq_canon _ _ _ ?_) ?_
  · intro y; exact ⟨_, List.mem_cons_self, by exact View.mem_set_unit_zero hz2 inb_S1024x128_S1024x128_0_0 y⟩
  rw [View.canon_cons_unit_zero (S := S1024x128) hz2]
  simp only [View.readAt_eq_ld, View.ld_unit_zero (S := S1024x1024) hz2, View.ld_unit_zero (S := S1024x128) hz2, View.ld_unit_zero (S := S1x128) hz2,
    View.readCov_unit_zero (S := S1024x128) _ hz2, View.readCov_cons_toLoadRect]

/-! ## The body obligation -/

variable (V : (c : Dev nD) → (b : Ref sig .tc) → Buf (Elt F) ((c : Thread nD τ).loc b))

/-- Each window's current staging memref at point t, as the pipeline passes it to the body. -/
abbrev ms0 (t : Fin cfg1.N) : Memref sig .tc .vmem S1024x1024 .f32 := win1_0.stage (cfg1.slots t 0)
abbrev ms1 (t : Fin cfg1.N) : Memref sig .tc .vmem S1024x128 .f32 := win1_1.stage (cfg1.slots t 1)
abbrev ms2 (t : Fin cfg1.N) : Memref sig .tc .vmem S1x128 .f32 := win1_2.stage (cfg1.slots t 2)
abbrev ms3 (t : Fin cfg1.N) : Memref sig .tc .vmem S1024x128 .f32 := win1_3.stage (cfg1.slots t 3)

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents, beside the rest; -/
theorem Phi_any (c : Dev nD) (t : Fin cfg1.N) :
    (dat V c).Φ t.castSucc ⊢ iprop((∃ d, owns (c : Thread nD τ) scM fullShare d) ∗ others (F := F) c) := by
  rw [Phi_castSucc]
  by_cases hz : t.val = 0
  · rw [PhiS_zero V c _ _ hz]; exact PhiA_split c
  · rw [PhiS_pos V c _ _ hz]
    iintro ⟨HS, Ho⟩
    isplitl [HS]; · iexists _; iexact HS
    iexact Ho

/-- before a point that is not the first, at the partial sums the point before left. -/
theorem Phi_prev (c : Dev nD) (t : Fin cfg1.N) (hz : t.val ≠ 0) :
    (dat V c).Φ t.castSucc = iprop(owns (c : Thread nD τ) scM fullShare (acc V c (t.val - 1) (Nat.lt_of_le_of_lt (Nat.sub_le _ _) t.isLt)) ∗ others (F := F) c) := by
  rw [Phi_castSucc, PhiS_pos V c _ _ hz]

set_option maxHeartbeats 2000000 in
/-- The body at any point: the inputs' buffers hold their blocks; the point's position in its row block says which of
    the three runs applies; the invariant hands over the accumulator and takes it back at this point's partial sums. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 16 := lt_of_lt_of_eq t.isLt (show cfg1.N = 16 from N_1)
  by_cases h0 : t.val % 4 = 0
  · have h1 : ¬t.val % 4 = 3 := by omega
    rw [Dat.leavesExact_idle (dat V c) 3 t (idle_3 t h1) (noFlush_3 t h1)]
    rw [acc_first V c t h0]
    iintro ⟨HΦ, Ho, ⟨%d0, H0⟩, ⟨%d1, H1⟩, ⟨%d2, H2⟩, ⟨%d3, H3⟩⟩
    ihave HΦ' := (Phi_any V c t) $$ HΦ
    icases HΦ' with ⟨HS, Hoth⟩
    iapply (run_first c (grid1.coords t) Set.univ _ _ _ _ _ _ _ _ _ _ (ablk V c t) (hblk V c t) (bblk V c t) _
      ((isFirst_iff t).mpr h0) (fun h => h1 ((isLast_iff t).mp h)) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth]
    · isplitl [HS]; · iexact HS
      iexact Hoth
    isplitl [Ho]; · iexact Ho
    isplitl [H0]; · iexact H0
    isplitl [H1]; · iexact H1
    isplitl [H2]; · iexact H2
    iexists _; iexact H3
  · have hz : t.val ≠ 0 := fun h => h0 (by rw [h])
    rw [acc_next V c t h0, Phi_prev V c t hz]
    by_cases h1 : t.val % 4 = 3
    · rw [show (dat V c).leavesExact 3 t = owns (c : Thread nD τ) (ms3 t) fullShare ((dat V c).after 3 t) from by
        unfold Dat.leavesExact; rw [live_3 t h1], after_3]
      unfold outb
      rw [acc_next V c t h0]
      iintro ⟨⟨HS, Hoth⟩, Ho, ⟨%d0, H0⟩, ⟨%d1, H1⟩, ⟨%d2, H2⟩, ⟨%d3, H3⟩⟩
      iapply (run_last c (grid1.coords t) Set.univ _ _ _ _ _ _ _ _ _ _ (ablk V c t) (hblk V c t) (bblk V c t) _
        (fun h => h0 ((isFirst_iff t).mp h)) ((isLast_iff t).mpr h1) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexact H3
    · rw [Dat.leavesExact_idle (dat V c) 3 t (idle_3 t h1) (noFlush_3 t h1)]
      iintro ⟨⟨HS, Hoth⟩, Ho, ⟨%d0, H0⟩, ⟨%d1, H1⟩, ⟨%d2, H2⟩, ⟨%d3, H3⟩⟩
      iapply (run_mid c (grid1.coords t) Set.univ _ _ _ _ _ _ _ _ _ _ (ablk V c t) (hblk V c t) (bblk V c t) _
        (fun h => h0 ((isFirst_iff t).mp h)) (fun h => h1 ((isLast_iff t).mp h)) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Final

end
-- ==== Proof.KI.Run.lean ====
/-
  The whole program's run: six host operations (d as a row, H_v · weight, the bias as a row), then the first kernel
  call, then the second.  Between the items every unscoped buffer of the core is held at a known valuation:
  W0 the launch memory; W1 after the host operations; W2 = W1 with adjusted_A's buffer at what the first call's
  write-backs leave; W3 = W2 with the result's buffer at what the second call's write-backs leave.  Each kernel
  call is entered by taking its windows' arrays out of the held buffers (the first call reads T through two
  windows, so T's buffer is split into two half shares and rejoined at the exit) and left by putting them back.
  Every weakly fair execution terminates, and the final memory agrees with W3 on every unscoped buffer.
-/
import proofs.«131495_j12627203850541_1_alg».proof.Proof.KI.AdjABody
import proofs.«131495_j12627203850541_1_alg».proof.Proof.KI.FinalBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents between the items -/

/-- Core c's buffers at launch. -/
abbrev W0 (m : (ℓ : Loc nD τ sig) → Buf (Elt F) ℓ) : Dev nD → Valuation τ sig (Elt F) := fun c b => m (c, b)
/-- After the host operations (the first call's entry). -/
abbrev W1 (m : (ℓ : Loc nD τ sig) → Buf (Elt F) ℓ) : Dev nD → Valuation τ sig (Elt F) := fun c => StableHlo.after hostOps0 (W0 m c)
/-- The same read at the TensorCore's references. -/
abbrev V1 (m : (ℓ : Loc nD τ sig) → Buf (Elt F) ℓ) : (c : Dev nD) → (b : Ref sig .tc) → Buf (Elt F) ((c : Thread nD τ).loc b) := fun c b => W1 m c b
/-- After the first call: adjusted_A's buffer at what the write-backs leave, every other buffer as entered. -/
def W2 (m : (ℓ : Loc nD τ sig) → Buf (Elt F) ℓ) (c : Dev nD) : Valuation τ sig (Elt F) :=
  Function.update (W1 m c) main_v6 ((AdjA.dat (V1 m) c).arrAt 4 cfg0.N)
abbrev V2 (m : (ℓ : Loc nD τ sig) → Buf (Elt F) ℓ) : (c : Dev nD) → (b : Ref sig .tc) → Buf (Elt F) ((c : Thread nD τ).loc b) := fun c b => W2 m c b
/-- After the second call: the result's buffer at what the write-backs leave, every other buffer as entered. -/
def W3 (m : (ℓ : Loc nD τ sig) → Buf (Elt F) ℓ) (c : Dev nD) : Valuation τ sig (Elt F) :=
  Function.update (W2 m c) main_v7 ((Final.dat (V2 m) c).arrAt 3 cfg1.N)

/-! ## The first call's arrays among the core's unscoped buffers

The first call's five windows sit on four buffers: T (windows 0 and 1), d as a row, adj_v, and adjusted_A.  Held
among the core's unscoped buffers each of the four is whole at the full share; the call's proof data hold T twice,
at the left half share for window 0 and the right half for window 1, and the three others at the full share. -/

/-- The buffers behind the first call's windows. -/
theorem arrImage0 : Finset.univ.image (Pipeline.arrRef spec0) = ({main_arg4, main_v3, main_arg3, main_v6} : Finset (Ref sig .tc)) := by decide

/-- Those four buffers, each whole at the full share, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg4) ↦{fullShare} V main_arg4) ∗ (((c : Thread nD τ).loc main_v3) ↦{fullShare} V main_v3)
          ∗ (((c : Thread nD τ).loc main_arg3) ↦{fullShare} V main_arg3) ∗ (((c : Thread nD τ).loc main_v6) ↦{fullShare} V main_v6)) := by
  unfold Pipeline.arrBufs
  rw [arrImage0, bigSep_insert (by decide), bigSep_insert (by decide), bigSep_insert (by decide), bigSep_singleton]
  rfl

/-- The first call's windowed arrays at contents G, window by window: every array is a whole buffer; T's buffer is
    held at its left half for window 0 and at its right half for window 1, the three others at the full share. -/
theorem arrays0_eq (V : (c : Dev nD) → (b : Ref sig .tc) → Buf (Elt F) ((c : Thread nD τ).loc b)) (c : Dev nD)
    (G : (w : Fin cfg0.W) → Buf (Elt F) ((cfg0.win w).arr.view.loc (c : Thread nD τ))) :
    ((AdjA.dat V c).arrays G : sProp 𝕄)
      = iprop((((c : Thread nD τ).loc main_arg4) ↦{fullShare.left} G 0) ∗ (((c : Thread nD τ).loc main_arg4) ↦{fullShare.right} G 1)
          ∗ (((c : Thread nD τ).loc main_v3) ↦{fullShare} G 2) ∗ (((c : Thread nD τ).loc main_arg3) ↦{fullShare} G 3)
          ∗ (((c : Thread nD τ).loc main_v6) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The core's unscoped buffers are the four buffers behind the first call's windows and the rest. -/
theorem split0 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs 0 winFacts₀0.arr_unscoped c V

/-- ENTRY of the first call, the arrays' part: out of the core's unscoped buffers at contents V come the call's arrays
    at their entry contents — T's full share cut into its two halves, one per window on it — and the rest at V. -/
theorem entry0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((AdjA.dat V c).arrays ((AdjA.dat V c).arrAt · 0)
          ∗ Pipeline.unscopedRest (Ix := Unit) (Name := ℕ) (U := UR sig nD τ) (Lvl := ℕ) spec0 c (V c)) := by
  rw [split0, arrBufs0_eq, arrays0_eq]
  iintro ⟨⟨HT, Hd, Hv, Ho⟩, Hrest⟩
  ihave HT := (pointsTo_share (PosShare.mem_left_op_right fullShare)).1 $$ HT
  icases HT with ⟨HT₁, HT₂⟩
  isplitr [Hrest]
  · isplitl [HT₁]; · iexact HT₁
    isplitl [HT₂]; · iexact HT₂
    isplitl [Hd]; · iexact Hd
    isplitl [Hv]; · iexact Hv
    iexact Ho
  iexact Hrest

/-- EXIT of the first call, the arrays' part: the four input windows' arrays are as entered (an input is never written
    back), so T's two halves rejoin to its full share at V; with adjusted_A's buffer at what the write-backs leave and
    the rest at V they are the core's unscoped buffers at any contents V' that have adjusted_A's buffer there and
    agree with V elsewhere. -/
theorem exit0 (V V' : (c : Dev nD) → (b : Ref sig .tc) → Buf (Elt F) ((c : Thread nD τ).loc b)) (c : Dev nD)
    (hout : V' c main_v6 = (AdjA.dat V c).arrAt 4 cfg0.N) (hne : ∀ b : Ref sig .tc, b ≠ main_v6 → V' c b = V c b) :
    iprop((AdjA.dat V c).arrays ((AdjA.dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  have hrest : (Pipeline.unscopedRest (Ix := Unit) (Name := ℕ) (U := UR sig nD τ) (Lvl := ℕ) spec0 c (V' c) : sProp 𝕄)
      = Pipeline.unscopedRest spec0 c (V c) := by
    unfold Pipeline.unscopedRest
    exact bigSep_congr fun b hb => by
      rw [hne b fun h => (Finset.mem_sdiff.mp hb).2 (h ▸ Finset.mem_image.mpr ⟨4, Finset.mem_univ _, rfl⟩)]
  have h0 : (AdjA.dat V c).arrAt 0 cfg0.N = V c main_arg4 := (AdjA.dat V c).arrAt_in 0 rfl _
  have h1 : (AdjA.dat V c).arrAt 1 cfg0.N = V c main_arg4 := (AdjA.dat V c).arrAt_in 1 rfl _
  have h2 : (AdjA.dat V c).arrAt 2 cfg0.N = V c main_v3 := (AdjA.dat V c).arrAt_in 2 rfl _
  have h3 : (AdjA.dat V c).arrAt 3 cfg0.N = V c main_arg3 := (AdjA.dat V c).arrAt_in 3 rfl _
  rw [split0, arrBufs0_eq, arrays0_eq, hrest,
    hne main_arg4 (by decide), hne main_v3 (by decide), hne main_arg3 (by decide), hout, h0, h1, h2, h3]
  iintro ⟨⟨HT₁, HT₂, Hd, Hv, Ho⟩, Hrest⟩
  ihave HT := (pointsTo_share (PosShare.mem_left_op_right fullShare)).2 $$ [HT₁ HT₂]
  · isplitl [HT₁] <;> iassumption
  isplitr [Hrest]
  · isplitl [HT]; · iexact HT
    isplitl [Hd]; · iexact Hd
    isplitl [Hv]; · iexact Hv
    iexact Ho
  iexact Hrest

/-! ## What each call changes -/

/-- After the first call adjusted_A's buffer holds what the write-backs leave, -/
theorem W2_out (m : (ℓ : Loc nD τ sig) → Buf (Elt F) ℓ) (c : Dev nD) :
    V2 m c main_v6 = (AdjA.dat (V1 m) c).arrAt 4 cfg0.N := by
  show W2 m c (Proc.devRef .tc main_v6) = _
  unfold W2; exact Function.update_self ..
/-- and every other buffer what it held before. -/
theorem W2_ne (m : (ℓ : Loc nD τ sig) → Buf (Elt F) ℓ) (c : Dev nD) (b : Ref sig .tc) (h : b ≠ main_v6) :
    V2 m c b = V1 m c b := by
  show W2 m c (Proc.devRef .tc b) = W1 m c (Proc.devRef .tc b)
  unfold W2; exact Function.update_of_ne (StableHlo.devRef_ne_of_ne h) ..

/-- The same read at the TensorCore's references. -/
abbrev V3 (m : (ℓ : Loc nD τ sig) → Buf (Elt F) ℓ) : (c : Dev nD) → (b : Ref sig .tc) → Buf (Elt F) ((c : Thread nD τ).loc b) := fun c b => W3 m c b

/-- After the second call the result's buffer holds what the write-backs leave, -/
theorem W3_out (m : (ℓ : Loc nD τ sig) → Buf (Elt F) ℓ) (c : Dev nD) :
    V3 m c main_v7 = (Final.dat (V2 m) c).arrAt 3 cfg1.N := by
  show W3 m c (Proc.devRef .tc main_v7) = _
  unfold W3; exact Function.update_self ..
/-- and every other buffer what it held before. -/
theorem W3_ne (m : (ℓ : Loc nD τ sig) → Buf (Elt F) ℓ) (c : Dev nD) (b : Ref sig .tc) (h : b ≠ main_v7) :
    V3 m c b = V2 m c b := by
  show W3 m c (Proc.devRef .tc b) = W2 m c (Proc.devRef .tc b)
  unfold W3; exact Function.update_of_ne (StableHlo.devRef_ne_of_ne h) ..

/-- At the second call's exit each of its arrays holds what W3 says: the three inputs (adjusted_A, H_v · weight, the
    bias row) as entered, the result what the write-backs leave. -/
theorem hF1 (m : (ℓ : Loc nD τ sig) → Buf (Elt F) ℓ) (c : Dev nD) :
    ∀ w : Fin cfg1.W, (Final.dat (V2 m) c).arrAt w cfg1.N = V3 m c (Pipeline.arrRef spec1 w)
  | ⟨0, _⟩ => ((Final.dat (V2 m) c).arrAt_in 0 rfl _).trans (W3_ne m c main_v6 (by decide)).symm
  | ⟨1, _⟩ => ((Final.dat (V2 m) c).arrAt_in 1 rfl _).trans (W3_ne m c main_v4 (by decide)).symm
  | ⟨2, _⟩ => ((Final.dat (V2 m) c).arrAt_in 2 rfl _).trans (W3_ne m c main_v5 (by decide)).symm
  | ⟨3, _⟩ => (W3_out m c).symm
  | ⟨_ + 4, h⟩ => absurd h (Nat.not_lt.2 (Nat.le_add_left _ _))
/-- Off the second call's arrays nothing changes. -/
theorem hrest1 (m : (ℓ : Loc nD τ sig) → Buf (Elt F) ℓ) (c : Dev nD) :
    ∀ b, b ∉ Finset.univ.image (Pipeline.arrRef spec1) → V3 m c b = V2 m c b :=
  fun b hb => W3_ne m c b fun h => hb (h ▸ Finset.mem_image.mpr ⟨3, Finset.mem_univ _, rfl⟩)

/-! ## The proof data family and the thread state -/

/-- No call prefetches a table. -/
abbrev adm : (p : Fin 2) → (pcfgs (F := F) p).Adm := fun p => (cfgs p).toPCfg_adm
/-- Both calls' proof data, each at the contents its call is entered from. -/
def pdats (m : (ℓ : Loc nD τ sig) → Buf (Elt F) ℓ) :
    (p : Fin 2) → (c : Dev nD) → Dat τ (Elt F) Unit ℕ (UR sig nD τ) ℕ (Pipeline.pin (pcfgs (F := F)) adm p) c
  | ⟨0, _⟩ => fun c => AdjA.dat (V1 m) c
  | ⟨1, _⟩ => fun c => Final.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- No host operation allocates a buffer. -/
theorem ops_fresh : (hostOps0 : List (HloOp τ sig (Elt F))).Forall fun op => op.fresh = ∅ := by
  simp only [List.Forall]; repeat' constructor
/-- The host operations as a segment: over the unscoped buffers from W0 to W1, R riding along. -/
abbrev hseg0 (m : (ℓ : Loc nD τ sig) → Buf (Elt F) ℓ) : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp ops_fresh) op h) (W0 m) R
/-- The last thread state but for the core owing nothing: every unscoped buffer at W3, the generator register at some state. -/
abbrev Tₙ (m : (ℓ : Loc nD τ sig) → Buf (Elt F) ℓ) (c : Dev nD) : sProp 𝕄 :=
  iprop(StableHlo.held (c : Thread nD τ) (Pipeline.ucRefs τ sig) (W3 m c) ∗ ∃ r, prngReg c r)

/-! ## The kernel calls as segments -/

set_option backward.isDefEq.respectTransparency.types false in
/-- THE FIRST CALL over the thread state: entered from every unscoped buffer at W1, left at W2.  Its arrays come out
    of the unscoped buffers with T's share halved (entry0) and go back with the halves rejoined (exit0); the generator
    register and the scoped buffers no window stages make the invariant before the first point and come back after the
    last; nothing owed; no semaphore of the kernel's own. -/
def reg0 (m : (ℓ : Loc nD τ sig) → Buf (Elt F) ℓ) : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (AdjA.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (AdjA.hin (V1 m) c)
    unfold Pipeline.ΦA
    iintro ⟨Hp, -, Hr⟩
    isplitl [Hr]; · iexact Hr
    iexact Hp
  hout c := by
    rw [Pipeline.ownSems0_none]
    refine (AdjA.hout (V1 m) c).trans ?_
    unfold Pipeline.ΦA
    iintro ⟨Hr, Hp⟩
    isplitl [Hp]; · iexact Hp
    isplitr; · iempintro
    iexact Hr
  hexit c := by
    have hjoin := exit0 (V1 m) (V2 m) c (W2_out m c) (W2_ne m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at W2, left at W3 beside the core owing
    nothing.  Its four windows sit on four distinct buffers, each held at the full share: they come out of the unscoped
    buffers and go back at W3, which has the result's buffer at what the write-backs leave and agrees with W2 elsewhere. -/
def reg1 (m : (ℓ : Loc nD τ sig) → Buf (Elt F) ℓ) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Final.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Final.hin (V2 m) c)
    unfold Pipeline.ΦA
    iintro ⟨Hp, -, Hr⟩
    isplitl [Hr]; · iexact Hr
    iexact Hp
  hout c := by
    rw [Pipeline.ownSems0_none]
    refine (Final.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's three items in order: the host operations, the first call, the second. -/
abbrev segs (m : (ℓ : Loc nD τ sig) → Buf (Elt F) ℓ) : List (Pipeline.Seg (pcfgs (F := F)) adm (pdats m) () defs₀ 𝒱₀ L lv) :=
  [ .host (hseg0 m), .region (reg0 m), .region (reg1 m) ]
/-- The program is the run of those items. -/
theorem main_run (m : (ℓ : Loc nD τ sig) → Buf (Elt F) ℓ) (c : Dev nD) : main (F := F) c = Pipeline.Seg.run (segs m) :=
  (main_chain c).trans (by chain_rfl)

set_option backward.isDefEq.respectTransparency.types false in
/-- Every weakly fair execution of the program from memory m with zero counters terminates, nothing faulting, and
    the final memory holds W3 at every unscoped buffer. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Whole

end
-- ==== Proof.KI.Kept.lean ====
/-
  Which buffers each item of the program changes: the first call only adjusted_A's buffer, the second only the
  result's, the host operations only their own six results.  So every argument's buffer ends as launched.
-/
import proofs.«131495_j12627203850541_1_alg».proof.Proof.KI.Run
import proofs.«131495_j12627203850541_1_alg».proof.Proof.Gen.KernelIdeal.Regions

noncomputable section

namespace Cert.KernelIdeal.Whole

open Cert.KernelIdeal Cert.KernelIdeal.Gen
open Idealize.ShloMosaic Idealize.ShloMosaic.TcCoe Idealize.SL.Sem

variable {F : FTy → Type} [FloatOps F]

theorem W2_v6 (m : (ℓ : Loc nD τ sig) → Buf (Elt F) ℓ) (c : Dev nD) :
    W2 m c main_v6 = (AdjA.dat (V1 m) c).arrAt 4 cfg0.N := by
  unfold W2; exact Function.update_self ..

theorem W2_of_ne (m : (ℓ : Loc nD τ sig) → Buf (Elt F) ℓ) (c : Dev nD) (r : Ref sig .tc) (h : r ≠ main_v6) :
    W2 m c r = W1 m c r := by
  unfold W2; exact Function.update_of_ne (StableHlo.devRef_ne_of_ne h) ..

theorem W3_v7 (m : (ℓ : Loc nD τ sig) → Buf (Elt F) ℓ) (c : Dev nD) :
    W3 m c main_v7 = (Final.dat (V2 m) c).arrAt 3 cfg1.N := by
  unfold W3; exact Function.update_self ..

theorem W3_of_ne (m : (ℓ : Loc nD τ sig) → Buf (Elt F) ℓ) (c : Dev nD) (r : Ref sig .tc) (h : r ≠ main_v7) :
    W3 m c r = W2 m c r := by
  unfold W3; exact Function.update_of_ne (StableHlo.devRef_ne_of_ne h) ..

/-- A buffer the host operations do not write holds its launch contents when the first call is entered. -/
theorem W1_of (m : (ℓ : Loc nD τ sig) → Buf (Elt F) ℓ) (c : Dev nD) (r : Ref sig .tc) (h : r ∉ hostOps0_W) :
    W1 m c r = m ((c : Thread nD τ).loc r) :=
  Gen.V1_of m c r h

/-- An argument's buffer ends as launched: no host operation writes it and no call changes it. -/
theorem W3_arg (m : (ℓ : Loc nD τ sig) → Buf (Elt F) ℓ) (c : Dev nD) (r : Ref sig .tc)
    (h6 : r ≠ main_v6) (h7 : r ≠ main_v7) (h : r ∉ hostOps0_W) :
    W3 m c r = m ((c : Thread nD τ).loc r) :=
  (W3_of_ne m c r h7).trans ((W2_of_ne m c r h6).trans (W1_of m c r h))

/-- An unscoped TensorCore reference is among the buffers the run's post speaks of. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The frame: every weakly fair execution terminates and every argument's buffer ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide)),
     (h c _ (mem_uc main_arg7 (by decide))).trans (W3_arg m c main_arg7 (by decide) (by decide) (by decide))⟩)
    (run_main m ρ)

end Cert.KernelIdeal.Whole

end
-- ==== Proof.Spec.lean ====
/-
  What both programs compute, as plain sums over the extended reals, the arrays read as functions of their
  coordinates:

    d_e           = Σ_f H_e[e, f] · p[f]                                  (e < 8192, f < 64)
    mult[i, j]    = Σ_k (T[i, k] · d_k) · T[j, k]                         (i, j < 4096, k < 8192)
    adjA[i, j]    = (1 if i = j, mult[i, j] otherwise) · adj_v[i, j]
    hvw[k, n]     = Σ_f H_v[k, f] · W[f, n]                               (k < 4096, f, n < 128)
    out[i, n]     = (Σ_k adjA[i, k] · hvw[k, n]) + bias[n]

  The kernel reaches mult and out block by block, adding block sums into an accumulator; the reference writes the
  diagonal mask as  eye + (1 − eye) · mult.  Addition on the extended reals is commutative and associative, so the
  grouping of a sum does not matter, and no entry needs to be finite for these identities.
-/
import Idealize.ShloMosaic.PureOps.Ideal
import Idealize.ShloMosaic.Lib.ValueIdx

noncomputable section

namespace Cert.Spec

open scoped BigOperators

def dvec (He : Fin 8192 → Fin 64 → EReal) (p : Fin 64 → EReal) (e : Fin 8192) : EReal :=
  ∑ f : Fin 64, He e f * p f

def mult (T : Fin 4096 → Fin 8192 → EReal) (d : Fin 8192 → EReal) (i j : Fin 4096) : EReal :=
  ∑ k : Fin 8192, (T i k * d k) * T j k

def adjA (T : Fin 4096 → Fin 8192 → EReal) (d : Fin 8192 → EReal) (adjv : Fin 4096 → Fin 4096 → EReal)
    (i j : Fin 4096) : EReal :=
  (if i = j then 1 else mult T d i j) * adjv i j

def hvw (Hv : Fin 4096 → Fin 128 → EReal) (W : Fin 128 → Fin 128 → EReal) (k : Fin 4096) (n : Fin 128) : EReal :=
  ∑ f : Fin 128, Hv k f * W f n

def out (Hv : Fin 4096 → Fin 128 → EReal) (He : Fin 8192 → Fin 64 → EReal) (adjv : Fin 4096 → Fin 4096 → EReal)
    (T : Fin 4096 → Fin 8192 → EReal) (W : Fin 128 → Fin 128 → EReal) (p : Fin 64 → EReal) (bias : Fin 128 → EReal)
    (i : Fin 4096) (n : Fin 128) : EReal :=
  (∑ k : Fin 4096, adjA T (dvec He p) adjv i k * hvw Hv W k n) + bias n

/-- The reference's spelling of the diagonal mask: with m = 1 on the diagonal and 0 off it,
    m + (1 − m) · x  is 1 on the diagonal and x off it, for every extended real x. -/
theorem mask_eq (i j : Fin 4096) (x : EReal) :
    (if i = j then (1 : EReal) else 0) + (1 - (if i = j then (1 : EReal) else 0)) * x = if i = j then 1 else x := by
  by_cases h : i = j
  · simp only [if_pos h]
    have : (1 : EReal) - 1 = 0 := by
      rw [show (1 : EReal) = ((1 : ℝ) : EReal) from rfl, ← EReal.coe_sub]; norm_num
    rw [this, zero_mul, add_zero]
  · simp only [if_neg h, sub_zero, one_mul, zero_add]

/-- The f32 word of 1.0 denotes the real number 1. -/
theorem ofBits_one : Idealize.ShloMosaic.Ideal.ofBits .f32 0x3F800000#32 = 1 := by
  simp [Idealize.ShloMosaic.Ideal.ofBits, Idealize.ShloMosaic.Ideal.ieee, -EReal.coe_mul]; norm_num

/-- The f32 word of +0.0 denotes 0. -/
theorem ofBits_zero : Idealize.ShloMosaic.Ideal.ofBits .f32 0x00000000#32 = 0 := by
  simp [Idealize.ShloMosaic.Ideal.ofBits, Idealize.ShloMosaic.Ideal.ieee]

end Cert.Spec

end
-- ==== Proof.KI.HostValue.lean ====
/-
  What the kernel program's six host operations leave, over the extended reals, read index by index: the row
  d[k] = Σ_f H_e[k, f] · p[f] (a transpose of p, a product, two reshapes), the matrix H_v · W, and the bias as a row.
-/
import proofs.«131495_j12627203850541_1_alg».proof.Proof.Gen.KernelIdeal.Launch
import proofs.«131495_j12627203850541_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx
open scoped BigOperators

/-! ## The fold of the six operations, at the three buffers the kernels read -/

/-- After the host operations main_v3 holds H_e · pᵀ, cast from 8192×1 to 8192 and then to 1×8192. -/
theorem fold_v3 (m : (ℓ : Loc nD τ sig) → Buf (Elt Ideal) ℓ) (c : Dev nD) :
    (StableHlo.after (hostOps0 (F := Ideal)) (fun b => m (c, b)) main_v3 : S1x8192.Idx → EReal)
      = shapeCast _ (shapeCast _ (Host.dotGeneral (F := Ideal) (φ₁ := .f32) (φ₂ := .f32) dot_S8192x64_S64x1_S8192x1_1_0_0_1_n_n none
          (m ((c : Thread nD τ).loc main_arg1) : S8192x64.Idx → EReal)
          (transpose S64x1 [1, 0] (m ((c : Thread nD τ).loc main_arg6) : S1x64.Idx → EReal) transposes_S1x64_S64x1_1_0))
          shapeCasts_S8192x1_S8192) shapeCasts_S8192_S1x8192 := by
  simp only [hostOps0]; after_results; rfl

/-- After the host operations main_v4 holds the product of H_v and W. -/
theorem fold_v4 (m : (ℓ : Loc nD τ sig) → Buf (Elt Ideal) ℓ) (c : Dev nD) :
    (StableHlo.after (hostOps0 (F := Ideal)) (fun b => m (c, b)) main_v4 : S4096x128.Idx → EReal)
      = Host.dotGeneral (F := Ideal) (φ₁ := .f32) (φ₂ := .f32) dot_S4096x128_S128x128_S4096x128_1_0_0_1_n_n none
          (m ((c : Thread nD τ).loc main_arg0) : S4096x128.Idx → EReal) (m ((c : Thread nD τ).loc main_arg5) : S128x128.Idx → EReal) := by
  simp only [hostOps0]; after_results

/-- After the host operations main_v5 holds the bias, cast from 128 to 1×128. -/
theorem fold_v5 (m : (ℓ : Loc nD τ sig) → Buf (Elt Ideal) ℓ) (c : Dev nD) :
    (StableHlo.after (hostOps0 (F := Ideal)) (fun b => m (c, b)) main_v5 : S1x128.Idx → EReal)
      = shapeCast _ (m ((c : Thread nD τ).loc main_arg7) : S128.Idx → EReal) shapeCasts_S128_S1x128 := by
  simp only [hostOps0]; after_results; rfl

/-! ## The product H_e · pᵀ (8192×64 by 64×1): which operand elements an output element reads -/

theorem lhs_d_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem lhs_d_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
theorem rhs_d_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
theorem rhs_d_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- The product read at (e, z): the sum over f of the left operand at (e, f) times the right operand at (f, z). -/
theorem dot_d_apply (x : (⟨S8192x64, .f32⟩ : BufTy).Contents (Elt Ideal)) (y : (⟨S64x1, .f32⟩ : BufTy).Contents (Elt Ideal))
    (e : Fin 8192) (z : Fin 1) :
    Host.dotGeneral (F := Ideal) (φ₁ := .f32) (φ₂ := .f32) dot_S8192x64_S64x1_S8192x1_1_0_0_1_n_n none x y (ix2 e z)
      = ∑ f : Fin 64, x (ix2 e f) * y (ix2 f z) := by
  simp only [Host.dotGeneral]
  rw [Ideal.dotGeneral_apply, ← Equiv.sum_comp (contrEquiv1 dot_S8192x64_S64x1_S8192x1_1_0_0_1_n_n 64 rfl rfl).symm]
  refine Finset.sum_congr rfl fun f _ => ?_
  have hf := contrEquiv1_symm_val dot_S8192x64_S64x1_S8192x1_1_0_0_1_n_n 64 rfl rfl f
  have el : dot_S8192x64_S64x1_S8192x1_1_0_0_1_n_n.lhsIdx (ix2 e z) ((contrEquiv1 dot_S8192x64_S64x1_S8192x1_1_0_0_1_n_n 64 rfl rfl).symm f) = ix2 e f := funext fun a => Fin.ext (by
    match a with
    | ⟨0, _⟩ => exact lhs_d_0 _ _
    | ⟨1, _⟩ => exact (lhs_d_1 _ _).trans hf)
  have er : dot_S8192x64_S64x1_S8192x1_1_0_0_1_n_n.rhsIdx (ix2 e z) ((contrEquiv1 dot_S8192x64_S64x1_S8192x1_1_0_0_1_n_n 64 rfl rfl).symm f) = ix2 f z := funext fun a => Fin.ext (by
    match a with
    | ⟨0, _⟩ => exact (rhs_d_0 _ _).trans hf
    | ⟨1, _⟩ => exact rhs_d_1 _ _)
  rw [el, er]

/-! ## The product H_v · W (4096×128 by 128×128) -/

theorem lhs_w_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_w_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_w_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_w_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product read at (k, n): the sum over f of the left operand at (k, f) times the right operand at (f, n). -/
theorem dot_w_apply (x : (⟨S4096x128, .f32⟩ : BufTy).Contents (Elt Ideal)) (y : (⟨S128x128, .f32⟩ : BufTy).Contents (Elt Ideal))
    (k : Fin 4096) (n : Fin 128) :
    Host.dotGeneral (F := Ideal) (φ₁ := .f32) (φ₂ := .f32) dot_S4096x128_S128x128_S4096x128_1_0_0_1_n_n none x y (ix2 k n)
      = ∑ f : Fin 128, x (ix2 k f) * y (ix2 f n) := by
  simp only [Host.dotGeneral]
  rw [Ideal.dotGeneral_apply, ← Equiv.sum_comp (contrEquiv1 dot_S4096x128_S128x128_S4096x128_1_0_0_1_n_n 128 rfl rfl).symm]
  refine Finset.sum_congr rfl fun f _ => ?_
  have hf := contrEquiv1_symm_val dot_S4096x128_S128x128_S4096x128_1_0_0_1_n_n 128 rfl rfl f
  have el : dot_S4096x128_S128x128_S4096x128_1_0_0_1_n_n.lhsIdx (ix2 k n) ((contrEquiv1 dot_S4096x128_S128x128_S4096x128_1_0_0_1_n_n 128 rfl rfl).symm f) = ix2 k f := funext fun a => Fin.ext (by
    match a with
    | ⟨0, _⟩ => exact lhs_w_0 _ _
    | ⟨1, _⟩ => exact (lhs_w_1 _ _).trans hf)
  have er : dot_S4096x128_S128x128_S4096x128_1_0_0_1_n_n.rhsIdx (ix2 k n) ((contrEquiv1 dot_S4096x128_S128x128_S4096x128_1_0_0_1_n_n 128 rfl rfl).symm f) = ix2 f n := funext fun a => Fin.ext (by
    match a with
    | ⟨0, _⟩ => exact (rhs_w_0 _ _).trans hf
    | ⟨1, _⟩ => exact rhs_w_1 _ _)
  rw [el, er]

/-! ## The composed terms over arbitrary arrays, read at an index -/

/-- The row d over arbitrary arrays He and p: the cast 8192 → 1×8192 reads position k (0 · 8192 + k = k), the cast
    8192×1 → 8192 reads row k (k · 1 + 0 = k), the product is the sum over f, and the transposed p at (f, 0) is p at (0, f). -/
theorem d_term_apply (x1 : (⟨S8192x64, .f32⟩ : BufTy).Contents (Elt Ideal)) (x6 : (⟨S1x64, .f32⟩ : BufTy).Contents (Elt Ideal))
    (k : Fin 8192) :
    (shapeCast S1x8192 (shapeCast S8192 (Host.dotGeneral (F := Ideal) (φ₁ := .f32) (φ₂ := .f32) dot_S8192x64_S64x1_S8192x1_1_0_0_1_n_n none x1
        (transpose S64x1 [1, 0] x6 transposes_S1x64_S64x1_1_0)) shapeCasts_S8192x1_S8192) shapeCasts_S8192_S1x8192 : S1x8192.Idx → EReal)
        (ix2 (0 : Fin 1) k)
      = Cert.Spec.dvec (fun a b => x1 (ix2 a b)) (fun b => x6 (ix2 (0 : Fin 1) b)) k := by
  generalize hy : transpose S64x1 [1, 0] x6 transposes_S1x64_S64x1_1_0 = y
  generalize hv : Host.dotGeneral (F := Ideal) (φ₁ := .f32) (φ₂ := .f32) dot_S8192x64_S64x1_S8192x1_1_0_0_1_n_n none x1 y = v
  generalize hu : shapeCast S8192 v shapeCasts_S8192x1_S8192 = u
  refine (shapeCast_apply u shapeCasts_S8192_S1x8192 (ix2 (0 : Fin 1) k) (ix1 k) ?_).trans ?_
  · rewrite [Shape.rowMajor_val_two, Shape.rowMajor_val_one]
    show k.val = 0 * 8192 + k.val
    omega
  subst hu
  refine (shapeCast_apply v shapeCasts_S8192x1_S8192 (ix1 k) (ix2 k (0 : Fin 1)) ?_).trans ?_
  · rewrite [Shape.rowMajor_val_two, Shape.rowMajor_val_one]
    show k.val * 1 + 0 = k.val
    omega
  subst hv
  rw [dot_d_apply]
  unfold Cert.Spec.dvec
  refine Finset.sum_congr rfl fun f _ => ?_
  subst hy
  rw [transpose_apply [1, 0] x6 transposes_S1x64_S64x1_1_0 (ix2 f (0 : Fin 1)) (ix2 (0 : Fin 1) f) (fun b => match b with
    | ⟨0, _⟩ => rfl
    | ⟨1, _⟩ => rfl)]

/-- The bias row over an arbitrary array: the cast 128 → 1×128 reads position n (0 · 128 + n = n). -/
theorem bias_term_apply (x7 : (⟨S128, .f32⟩ : BufTy).Contents (Elt Ideal)) (n : Fin 128) :
    (shapeCast S1x128 x7 shapeCasts_S128_S1x128 : S1x128.Idx → EReal) (ix2 (0 : Fin 1) n) = x7 (ix1 n) := by
  refine shapeCast_apply x7 shapeCasts_S128_S1x128 (ix2 (0 : Fin 1) n) (ix1 n) ?_
  rewrite [Shape.rowMajor_val_two, Shape.rowMajor_val_one]
  show n.val = 0 * 128 + n.val
  omega

/-- The row d after the host operations, at column k. -/
theorem d_row (m : (ℓ : Loc nD τ sig) → Buf (Elt Ideal) ℓ) (c : Dev nD) (k : Fin 8192) :
    (StableHlo.after (hostOps0 (F := Ideal)) (fun b => m (c, b)) main_v3 : S1x8192.Idx → EReal) (ix2 (0 : Fin 1) k)
      = Cert.Spec.dvec (fun a b => (m ((c : Thread nD τ).loc main_arg1) : S8192x64.Idx → EReal) (ix2 a b))
          (fun b => (m ((c : Thread nD τ).loc main_arg6) : S1x64.Idx → EReal) (ix2 (0 : Fin 1) b)) k :=
  (congrFun (fold_v3 m c) (ix2 (0 : Fin 1) k)).trans
    (d_term_apply (m ((c : Thread nD τ).loc main_arg1)) (m ((c : Thread nD τ).loc main_arg6)) k)

/-- H_v · W after the host operations, at (k, n). -/
theorem hvw_at (m : (ℓ : Loc nD τ sig) → Buf (Elt Ideal) ℓ) (c : Dev nD) (k : Fin 4096) (n : Fin 128) :
    (StableHlo.after (hostOps0 (F := Ideal)) (fun b => m (c, b)) main_v4 : S4096x128.Idx → EReal) (ix2 k n)
      = Cert.Spec.hvw (fun a b => (m ((c : Thread nD τ).loc main_arg0) : S4096x128.Idx → EReal) (ix2 a b))
          (fun a b => (m ((c : Thread nD τ).loc main_arg5) : S128x128.Idx → EReal) (ix2 a b)) k n :=
  (congrFun (fold_v4 m c) (ix2 k n)).trans
    (dot_w_apply (m ((c : Thread nD τ).loc main_arg0)) (m ((c : Thread nD τ).loc main_arg5)) k n)

/-- The bias row after the host operations, at column n. -/
theorem bias_row (m : (ℓ : Loc nD τ sig) → Buf (Elt Ideal) ℓ) (c : Dev nD) (n : Fin 128) :
    (StableHlo.after (hostOps0 (F := Ideal)) (fun b => m (c, b)) main_v5 : S1x128.Idx → EReal) (ix2 (0 : Fin 1) n)
      = (m ((c : Thread nD τ).loc main_arg7) : S128.Idx → EReal) (ix1 n) :=
  (congrFun (fold_v5 m c) (ix2 (0 : Fin 1) n)).trans (bias_term_apply (m ((c : Thread nD τ).loc main_arg7)) n)

end Cert.KernelIdeal.HostValue

end
-- ==== Proof.KI.FinalValue.lean ====
/-
  The array the second kernel call leaves, over the extended reals: each entry (i, n) of the result is
  Σ_k A[i, k] · H[k, n] + b[n]  for the arrays A (4096 × 4096), H (4096 × 128) and the row b (1 × 128) the region
  finds at its entry.  The accumulator after the k-th column block of a row block holds the sum over the first
  1024·(k+1) columns; the last block's point adds the bias row and its block is what is written back; the row
  blocks written back at the points k = 3 tile the result.
-/
import proofs.«131495_j12627203850541_1_alg».proof.Proof.KI.FinalData
import proofs.«131495_j12627203850541_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

/-- The result as one function of the entry arrays. -/
def finalG (A : Vec Ideal S4096x4096 .f32) (H : Vec Ideal S4096x128 .f32) (B : Vec Ideal S1x128 .f32) : Vec Ideal S4096x128 .f32 :=
  fun idx => (∑ k : Fin 4096, A (ix2 (idx 0) k) * H (ix2 k (idx 1))) + B (ix2 (0 : Fin 1) (idx 1))

/-! ## The body's arithmetic at an entry -/

/-- The reset block is zero at every entry. -/
theorem pay1_apply (p : Fin 1024) (q : Fin 128) : (k1_pay1 (F := Ideal)) (ix2 p q) = 0 := by
  unfold k1_pay1
  simp only [shapeCast_self]
  exact Cert.Spec.ofBits_zero

theorem lhs_mm_0 (i : S1024x128.Idx) (r : dot_S1024x1024_S1024x128_S1024x128_1_0_0_1_n_n.contr.Idx) :
    (dot_S1024x1024_S1024x128_S1024x128_1_0_0_1_n_n.lhsIdx i r 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_mm_1 (i : S1024x128.Idx) (r : dot_S1024x1024_S1024x128_S1024x128_1_0_0_1_n_n.contr.Idx) :
    (dot_S1024x1024_S1024x128_S1024x128_1_0_0_1_n_n.lhsIdx i r 1).val = (r ⟨0, by decide⟩).val :=
  dot_S1024x1024_S1024x128_S1024x128_1_0_0_1_n_n.lhsIdx_val_of_single rfl i r
theorem rhs_mm_0 (i : S1024x128.Idx) (r : dot_S1024x1024_S1024x128_S1024x128_1_0_0_1_n_n.contr.Idx) :
    (dot_S1024x1024_S1024x128_S1024x128_1_0_0_1_n_n.rhsIdx i r 0).val = (r ⟨0, by decide⟩).val :=
  dot_S1024x1024_S1024x128_S1024x128_1_0_0_1_n_n.rhsIdx_val_of_single rfl i r
theorem rhs_mm_1 (i : S1024x128.Idx) (r : dot_S1024x1024_S1024x128_S1024x128_1_0_0_1_n_n.contr.Idx) :
    (dot_S1024x1024_S1024x128_S1024x128_1_0_0_1_n_n.rhsIdx i r 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The block product into a zero accumulator, at entry (p, q): the sum over the block's 1024 columns. -/
theorem mm_apply (x : FVec Ideal S1024x1024 .bf16) (h : FVec Ideal S1024x128 .bf16) (p : Fin 1024) (q : Fin 128) :
    FloatOps.matmul dot_S1024x1024_S1024x128_S1024x128_1_0_0_1_n_n none x h (constant (F := Ideal) S1024x128 .f32 0x00000000#32) (ix2 p q)
      = ∑ k : Fin 1024, x (ix2 p k) * h (ix2 k q) := by
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The accumulating step at entry (p, q): what the accumulator held there plus the block product's entry. -/
theorem pay2_apply (x : Vec Ideal S1024x1024 .f32) (h : Vec Ideal S1024x128 .f32) (a : Vec Ideal S1024x128 .f32)
    (p : Fin 1024) (q : Fin 128) :
    k1_pay2 x h a (ix2 p q) = a (ix2 p q) + ∑ k : Fin 1024, x (ix2 p k) * h (ix2 k q) := by
  unfold k1_pay2
  simp only [shapeCast_self]
  refine (addf_apply (φ := .f32) a _ (ix2 p q)).trans ?_
  refine congrArg (a (ix2 p q) + ·) ?_
  exact mm_apply _ _ p q

/-- The closing step at entry (p, q): the partial sum there plus the bias row's entry q. -/
theorem pay3_apply (s : Vec Ideal S1024x128 .f32) (b : Vec Ideal S1x128 .f32) (p : Fin 1024) (q : Fin 128) :
    k1_pay3 s b (ix2 p q) = s (ix2 p q) + b (ix2 (0 : Fin 1) q) := by
  unfold k1_pay3
  simp only [shapeCast_self]
  refine (addf_apply (φ := .f32) s _ (ix2 p q)).trans ?_
  refine congrArg (s (ix2 p q) + ·) ?_
  exact broadcastTo_1b_ab_apply _ _ p q

/-! ## The windows' blocks, read off the arrays -/

/-- The block indices of the four windows at point t = 4·i + k: (i, k), (k, 0), (0, 0) and (i, 0). -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- Coordinate p of block number i along an axis of extent 4096 cut into blocks of 1024. -/
def at4k (i : ℕ) (p : Fin 1024) : Fin 4096 := ⟨(1024 * i + p.val) % 4096, Nat.mod_lt _ (by decide)⟩

/-- The block of adjusted_A at point t, entry (p, k): row p of row block t / 4, column k of column block t % 4. -/
theorem ablk_apply (V : (c : Dev nD) → (b : Ref sig .tc) → Buf (Elt Ideal) ((c : Thread nD τ).loc b)) (c : Dev nD)
    (t : Fin cfg1.N) (p k : Fin 1024) :
    ablk V c t (ix2 p k) = V c main_v6 (ix2 (at4k (t.val / 4) p) (at4k (t.val % 4) k)) := by
  obtain ⟨e0, e1, -⟩ := idx_facts t
  have hN : cfg1.N = 16 := N_1
  have ht := t.isLt
  show V c main_v6 (((cfg1.win 0).blk t).view.emb (ix2 p k)) = _
  refine congrArg (V c main_v6) (funext fun a => Fin.ext ?_)
  match a with
  | ⟨0, _⟩ => show win1_0.index t (0 : Fin 2) * 1024 + 1 * p.val = (1024 * (t.val / 4) + p.val) % 4096; have := p.isLt; omega
  | ⟨1, _⟩ => show win1_0.index t (1 : Fin 2) * 1024 + 1 * k.val = (1024 * (t.val % 4) + k.val) % 4096; have := k.isLt; omega

/-- The block of H at point t, entry (k, q): row k of row block t % 4. -/
theorem hblk_apply (V : (c : Dev nD) → (b : Ref sig .tc) → Buf (Elt Ideal) ((c : Thread nD τ).loc b)) (c : Dev nD)
    (t : Fin cfg1.N) (k : Fin 1024) (q : Fin 128) :
    hblk V c t (ix2 k q) = V c main_v4 (ix2 (at4k (t.val % 4) k) q) := by
  obtain ⟨-, -, e2, e3, -⟩ := idx_facts t
  show V c main_v4 (((cfg1.win 1).blk t).view.emb (ix2 k q)) = _
  refine congrArg (V c main_v4) (funext fun a => Fin.ext ?_)
  match a with
  | ⟨0, _⟩ => show win1_1.index t (0 : Fin 2) * 1024 + 1 * k.val = (1024 * (t.val % 4) + k.val) % 4096; have := k.isLt; omega
  | ⟨1, _⟩ => show win1_1.index t (1 : Fin 2) * 128 + 1 * q.val = q.val; omega

/-- The bias window's block is the bias row at every point. -/
theorem bblk_apply (V : (c : Dev nD) → (b : Ref sig .tc) → Buf (Elt Ideal) ((c : Thread nD τ).loc b)) (c : Dev nD)
    (t : Fin cfg1.N) (q : Fin 128) :
    bblk V c t (ix2 (0 : Fin 1) q) = V c main_v5 (ix2 (0 : Fin 1) q) := by
  obtain ⟨-, -, -, -, e4, e5, -⟩ := idx_facts t
  show V c main_v5 (((cfg1.win 2).blk t).view.emb (ix2 (0 : Fin 1) q)) = _
  refine congrArg (V c main_v5) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-! ## The accumulator as a partial sum -/

/-- What column block a contributes to entry (r, q) of the product. -/
def blockSum (A : Vec Ideal S4096x4096 .f32) (H : Vec Ideal S4096x128 .f32) (r : Fin 4096) (q : Fin 128) (a : ℕ) : EReal :=
  ∑ k : Fin 1024, A (ix2 r (at4k a k)) * H (ix2 (at4k a k) q)

/-- One accumulating step at point t adds column block t % 4's contribution to row t / 4's entry. -/
theorem step_apply (V : (c : Dev nD) → (b : Ref sig .tc) → Buf (Elt Ideal) ((c : Thread nD τ).loc b)) (c : Dev nD)
    (t : Fin cfg1.N) (a : Vec Ideal S1024x128 .f32) (p : Fin 1024) (q : Fin 128) :
    k1_pay2 (ablk V c t) (hblk V c t) a (ix2 p q)
      = a (ix2 p q) + blockSum (V c main_v6) (V c main_v4) (at4k (t.val / 4) p) q (t.val % 4) := by
  refine (pay2_apply (ablk V c t) (hblk V c t) a p q).trans ?_
  refine congrArg (a (ix2 p q) + ·) ?_
  unfold blockSum
  refine Finset.sum_congr rfl fun k _ => ?_
  rw [ablk_apply V c t p k, hblk_apply V c t k q]

/-- After point n the accumulator's entry (p, q) holds the contributions of the column blocks 0 … n % 4 to row
    p of row block n / 4. -/
theorem acc_apply (V : (c : Dev nD) → (b : Ref sig .tc) → Buf (Elt Ideal) ((c : Thread nD τ).loc b)) (c : Dev nD)
    (p : Fin 1024) (q : Fin 128) : ∀ (n : ℕ) (hn : n < cfg1.N),
    acc V c n hn (ix2 p q)
      = ∑ a ∈ Finset.range (n % 4 + 1), blockSum (V c main_v6) (V c main_v4) (at4k (n / 4) p) q a
  | 0, hn => by
    refine (congrFun (acc_first V c ⟨0, hn⟩ rfl) (ix2 p q)).trans ?_
    refine (step_apply V c ⟨0, hn⟩ (k1_pay1 (F := Ideal)) p q).trans ?_
    rw [pay1_apply, zero_add]
    show blockSum _ _ (at4k (0 / 4) p) q (0 % 4) = _
    rw [show (0 % 4 + 1) = 1 from rfl, Finset.sum_range_one]
  | n + 1, hn => by
    by_cases h : (n + 1) % 4 = 0
    · refine (congrFun (acc_first V c ⟨n + 1, hn⟩ h) (ix2 p q)).trans ?_
      refine (step_apply V c ⟨n + 1, hn⟩ (k1_pay1 (F := Ideal)) p q).trans ?_
      rw [pay1_apply, zero_add]
      show blockSum _ _ (at4k ((n + 1) / 4) p) q ((n + 1) % 4) = _
      rw [h, show (0 + 1) = 1 from rfl, Finset.sum_range_one]
    · refine (congrFun (acc_next V c ⟨n + 1, hn⟩ h) (ix2 p q)).trans ?_
      refine (step_apply V c ⟨n + 1, hn⟩ _ p q).trans ?_
      have ih := acc_apply V c p q n (Nat.lt_of_succ_lt hn)
      show acc V c n _ (ix2 p q) + blockSum _ _ (at4k ((n + 1) / 4) p) q ((n + 1) % 4) = _
      rw [ih]
      have e1 : (n + 1) / 4 = n / 4 := by omega
      have e2 : (n + 1) % 4 = n % 4 + 1 := by omega
      rw [e1, e2, Finset.sum_range_succ (fun a => blockSum (V c main_v6) (V c main_v4) (at4k (n / 4) p) q a) (n % 4 + 1)]

/-! ## From blocks to the array -/

/-- The four column blocks' contributions add up to the sum over all 4096 columns. -/
theorem sum_blocks (f : Fin 4096 → EReal) :
    ∑ a ∈ Finset.range 4, ∑ k : Fin 1024, f (at4k a k) = ∑ k : Fin 4096, f k := by
  rw [Finset.sum_range, ← Fintype.sum_prod_type', ← Equiv.sum_comp (finProdFinEquiv (m := 4) (n := 1024)) f]
  refine Finset.sum_congr rfl fun x _ => congrArg f (Fin.ext ?_)
  show (1024 * x.1.val + x.2.val) % 4096 = x.2.val + 1024 * x.1.val
  have h1 := x.1.isLt
  have h2 := x.2.isLt
  omega

/-- The result function at entry (r, q), its sum over the 4096 columns grouped by column block. -/
theorem finalG_apply (A : Vec Ideal S4096x4096 .f32) (H : Vec Ideal S4096x128 .f32) (B : Vec Ideal S1x128 .f32)
    (r : Fin 4096) (q : Fin 128) :
    finalG A H B (ix2 r q) = (∑ a ∈ Finset.range 4, blockSum A H r q a) + B (ix2 (0 : Fin 1) q) := by
  show (∑ k : Fin 4096, A (ix2 r k) * H (ix2 k q)) + B (ix2 (0 : Fin 1) q) = _
  refine congrArg (· + B (ix2 (0 : Fin 1) q)) ?_
  exact (sum_blocks (fun k => A (ix2 r k) * H (ix2 k q))).symm

/-- Entry (p, q) of the output block at point t sits in the result at row p of row block t / 4, column q. -/
theorem out_emb (t : Fin cfg1.N) (p : Fin 1024) (q : Fin 128) :
    ((cfg1.win 3).blk t).view.emb (ix2 p q) = ix2 (at4k (t.val / 4) p) q := by
  obtain ⟨-, -, -, -, -, -, e6, e7⟩ := idx_facts t
  have hN : cfg1.N = 16 := N_1
  have ht := t.isLt
  refine funext fun a => Fin.ext ?_
  match a with
  | ⟨0, _⟩ => show win1_3.index t (0 : Fin 2) * 1024 + 1 * p.val = (1024 * (t.val / 4) + p.val) % 4096; have := p.isLt; omega
  | ⟨1, _⟩ => show win1_3.index t (1 : Fin 2) * 128 + 1 * q.val = q.val; omega

/-- What a point that closes a row block (t % 4 = 3) writes back is its block of the result function. -/
theorem flushed_eq (V : (c : Dev nD) → (b : Ref sig .tc) → Buf (Elt Ideal) ((c : Thread nD τ).loc b)) (c : Dev nD)
    (t : Fin cfg1.N) (hf : (cfg1.win 3).flush t = true) :
    (dat (F := Ideal) V c).flushed 3 t
      = ((cfg1.win 3).blk t).view.read (Elt Ideal) (finalG (V c main_v6) (V c main_v4) (V c main_v5)) := by
  have h3 : t.val % 4 = 3 := (flush1_3 t).mp hf
  show (cfg1.win 3).cut (grid1.coords t) ((dat (F := Ideal) V c).after 3 t) = _
  rw [after_3]
  funext j
  obtain ⟨p, q, rfl⟩ : ∃ (p : Fin 1024) (q : Fin 128), j = ix2 p q := ⟨j 0, j 1, eq_ix2 j⟩
  show k1_pay3 (acc V c t.val t.isLt) (bblk V c t) (ix2 p q)
    = finalG (V c main_v6) (V c main_v4) (V c main_v5) (((cfg1.win 3).blk t).view.emb (ix2 p q))
  rw [out_emb t p q, finalG_apply (V c main_v6) (V c main_v4) (V c main_v5) (at4k (t.val / 4) p) q]
  refine (pay3_apply (acc V c t.val t.isLt) (bblk V c t) p q).trans ?_
  rw [acc_apply V c p q t.val t.isLt, bblk_apply V c t q, h3]

/-- An entry of the result is in point t's output block iff each coordinate is in the block's range. -/
theorem mem_blk (t : Fin cfg1.N) (i : S4096x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v7).slice (win1_3.rect t)).set ↔ _
  rw [View.set_slice_whole, Rect.mem_set_unit]
  exact Iff.rfl

/-- Every entry (r, n) of the result lies in the block written back at the point that closes row block r / 1024. -/
theorem cover (i : S4096x128.Idx) :
    ∃ t : Fin cfg1.N, (cfg1.win 3).flush t = true ∧ i ∈ ((cfg1.win 3).blk t).view.set := by
  have hi0 : (i 0).val < 4096 := (i 0).isLt
  have hi1 : (i 1).val < 128 := (i 1).isLt
  have hN : cfg1.N = 16 := N_1
  obtain ⟨t, ht⟩ : ∃ t : Fin cfg1.N, t.val = 4 * ((i 0).val / 1024) + 3 := ⟨⟨4 * ((i 0).val / 1024) + 3, by omega⟩, rfl⟩
  obtain ⟨-, -, -, -, -, -, e6, e7⟩ := idx_facts t
  refine ⟨t, (flush1_3 t).mpr (by omega), ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

/-- After the region the result array holds finalG of the arrays found at entry. -/
theorem arr_final (V : (c : Dev nD) → (b : Ref sig .tc) → Buf (Elt Ideal) ((c : Thread nD τ).loc b)) (c : Dev nD) :
    (dat (F := Ideal) V c).arrAt 3 cfg1.N = finalG (V c main_v6) (V c main_v4) (V c main_v5) := by
  exact (dat (F := Ideal) V c).arrAt_eq_of_cover 3 (finalG (V c main_v6) (V c main_v4) (V c main_v5))
    (fun t hf => flushed_eq V c t hf) cover

end Cert.KernelIdeal.Final

end
-- ==== Proof.KI.AdjAValue.lean ====
/-
  The array the first kernel call leaves, over the extended reals: entry (i, j) of the result is
  (1 if i = j, otherwise Σ_k (T[i, k] · d[k]) · T[j, k]) · adj_v[i, j]  for the arrays T (4096 × 8192), the row d
  (1 × 8192) and adj_v (4096 × 4096) the region finds at its entry.  The accumulator after the k-th block of 512
  columns of a result block holds the sum over the first 512·(k+1) columns; at k = 15 the diagonal is set to 1,
  the block multiplied by adj_v's and written back; the 16 result blocks tile the array.
-/
import proofs.«131495_j12627203850541_1_alg».proof.Proof.KI.AdjAData
import proofs.«131495_j12627203850541_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AdjA

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

/-- The result as one function of the entry arrays. -/
def adjG (T : Vec Ideal S4096x8192 .f32) (D : Vec Ideal S1x8192 .f32) (Av : Vec Ideal S4096x4096 .f32) : Vec Ideal S4096x4096 .f32 :=
  fun idx => Cert.Spec.adjA (fun a k => T (ix2 a k)) (fun k => D (ix2 (0 : Fin 1) k)) (fun a b => Av (ix2 a b)) (idx 0) (idx 1)

/-- The reset block is zero everywhere. -/
theorem pay1_apply (p q : Fin 1024) : k0_pay1 (F := Ideal) (ix2 p q) = 0 := by
  unfold k0_pay1
  rw [shapeCast_self]
  exact Cert.Spec.ofBits_zero

theorem lhs_mm_0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_mm_1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs_mm_0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs_mm_1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into zeros, at an entry: the sum over the block's 512 columns. -/
theorem mm_apply (x : FVec Ideal S1024x512 .bf16) (y : FVec Ideal S512x1024 .bf16) (p q : Fin 1024) :
    matmul dot_S1024x512_S512x1024_S1024x1024_1_0_0_1_n_n none x y (constant (F := Ideal) S1024x1024 .f32 0x00000000#32) (ix2 p q)
      = ∑ k : Fin 512, x (ix2 p k) * y (ix2 k q) := by
  refine (Ideal.matmul_constant_zero_apply dot_S1024x512_S512x1024_S1024x1024_1_0_0_1_n_n none x y (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-- The accumulate step at an entry: the old entry plus the sum over the block's 512 columns of
    (left · d) · right. -/
theorem pay2_apply (d : Vec Ideal S1x512 .f32) (l r : Vec Ideal S1024x512 .f32) (a : Vec Ideal S1024x1024 .f32) (p q : Fin 1024) :
    k0_pay2 d l r a (ix2 p q) = a (ix2 p q) + ∑ k : Fin 512, (l (ix2 p k) * d (ix2 (0 : Fin 1) k)) * r (ix2 q k) := by
  unfold k0_pay2
  dsimp only
  rw [shapeCast_self, shapeCast_self]
  refine (addf_apply _ _ _).trans ?_
  refine congrArg (fun z => a (ix2 p q) + z) ?_
  refine (mm_apply _ _ p q).trans ?_
  refine Finset.sum_congr rfl fun k _ => ?_
  have hb : broadcastTo S1024x512 d broadcasts_S1x512_S1024x512 (ix2 p k) = d (ix2 (0 : Fin 1) k) :=
    broadcastTo_apply d broadcasts_S1x512_S1024x512 (ix2 p k) (ix2 (0 : Fin 1) k) (fun a => match a with
      | ⟨0, _⟩ => rfl
      | ⟨1, _⟩ => rfl)
  have ht : transpose S512x1024 [1, 0] (truncf .bf16 r bitsLt_bf16_f32 : FVec Ideal S1024x512 .bf16) transposes_S1024x512_p1_0_S512x1024 (ix2 k q)
      = (truncf .bf16 r bitsLt_bf16_f32 : FVec Ideal S1024x512 .bf16) (ix2 q k) :=
    transpose_apply [1, 0] _ transposes_S1024x512_p1_0_S512x1024 (ix2 k q) (ix2 q k) (fun b => match b with
      | ⟨0, _⟩ => rfl
      | ⟨1, _⟩ => rfl)
  rw [ht]
  show (l (ix2 p k) * broadcastTo S1024x512 d broadcasts_S1x512_S1024x512 (ix2 p k)) * r (ix2 q k) = _
  rw [hb]

/-- Two 32-bit words  1024·I + p  and  1024·J + q  with I, J < 4 and p, q < 1024 are equal exactly when the
    numbers are: nothing wraps around. -/
theorem word_eq (I J : ℕ) (hI : I < 4) (hJ : J < 4) (p q : Fin 1024) :
    IntOp.cmpi .eq (IntOp.addi (Scalar.muli (BitVec.ofNat 32 I) 1024#32) (BitVec.ofNat 32 p.val))
        (IntOp.addi (Scalar.muli (BitVec.ofNat 32 J) 1024#32) (BitVec.ofNat 32 q.val))
      = if 1024 * I + p.val = 1024 * J + q.val then 1#1 else 0#1 := by
  have hp := p.isLt
  have hq := q.isLt
  have e : ∀ (K : ℕ) (x : Fin 1024), IntOp.addi (Scalar.muli (BitVec.ofNat 32 K) 1024#32) (BitVec.ofNat 32 x.val) = BitVec.ofNat 32 (1024 * K + x.val) := by
    intro K x
    show BitVec.ofNat 32 K * BitVec.ofNat 32 1024 + BitVec.ofNat 32 x.val = _
    rw [← BitVec.ofNat_mul, ← BitVec.ofNat_add, Nat.mul_comm]
  rw [e, e]
  show BitVec.ofBool (BitVec.ofNat 32 (1024 * I + p.val) == BitVec.ofNat 32 (1024 * J + q.val)) = _
  by_cases h : 1024 * I + p.val = 1024 * J + q.val
  · rw [if_pos h, h]; simp
  · rw [if_neg h]
    have hne : BitVec.ofNat 32 (1024 * I + p.val) ≠ BitVec.ofNat 32 (1024 * J + q.val) := by
      intro hh
      have := congrArg BitVec.toNat hh
      rw [BitVec.toNat_ofNat, BitVec.toNat_ofNat, Nat.mod_eq_of_lt (by omega), Nat.mod_eq_of_lt (by omega)] at this
      exact h this
    rw [beq_eq_false_iff_ne.mpr hne]
    rfl

/-- The output step at an entry: 1 where the global row and column indices agree, the accumulator elsewhere,
    times adj_v's entry. -/
theorem pay3_apply (i : grid0.Coords) (a v : Vec Ideal S1024x1024 .f32) (p q : Fin 1024) :
    k0_pay3 i a v (ix2 p q)
      = (if 1024 * (i 0).val + p.val = 1024 * (i 1).val + q.val then 1 else a (ix2 p q)) * v (ix2 p q) := by
  have h0 : (i 0).val < 4 := (i 0).isLt
  have h1 : (i 1).val < 4 := (i 1).isLt
  unfold k0_pay3
  dsimp only
  refine (mulf_apply _ _ _).trans ?_
  refine congrArg (fun z => z * v (ix2 p q)) ?_
  refine (select_apply _ _ _ _).trans ?_
  have hc : cmpi .eq (addi (broadcast S1024x1024 (Scalar.muli (BitVec.ofNat 32 (i 0).val) 1024#32)) (iota .tc S1024x1024 32 [0] iota_S1024x1024_d0_w32))
        (addi (broadcast S1024x1024 (Scalar.muli (BitVec.ofNat 32 (i 1).val) 1024#32)) (iota .tc S1024x1024 32 [1] iota_S1024x1024_d1_w32)) (ix2 p q)
      = if 1024 * (i 0).val + p.val = 1024 * (i 1).val + q.val then 1#1 else 0#1 := by
    show IntOp.cmpi .eq (IntOp.addi (Scalar.muli (BitVec.ofNat 32 (i 0).val) 1024#32) (iota .tc S1024x1024 32 [0] iota_S1024x1024_d0_w32 (ix2 p q)))
        (IntOp.addi (Scalar.muli (BitVec.ofNat 32 (i 1).val) 1024#32) (iota .tc S1024x1024 32 [1] iota_S1024x1024_d1_w32 (ix2 p q))) = _
    rw [iota_single_apply, iota_single_apply]
    exact word_eq (i 0).val (i 1).val h0 h1 p q
  rw [hc]
  by_cases h : 1024 * (i 0).val + p.val = 1024 * (i 1).val + q.val
  · rw [if_pos h, if_pos h, select_one]
    exact Cert.Spec.ofBits_one
  · rw [if_neg h, if_neg h, select_zero]

/-! ## Reading the arrays at natural-number coordinates -/

/-- T at (a, k), zero outside the array. -/
def rdT (T : Vec Ideal S4096x8192 .f32) (a k : ℕ) : EReal :=
  if h : a < 4096 ∧ k < 8192 then T (ix2 ⟨a, h.1⟩ ⟨k, h.2⟩) else 0
/-- d at k, zero outside. -/
def rdD (D : Vec Ideal S1x8192 .f32) (k : ℕ) : EReal :=
  if h : k < 8192 then D (ix2 (0 : Fin 1) ⟨k, h⟩) else 0
/-- adj_v at (a, b), zero outside. -/
def rdA (Av : Vec Ideal S4096x4096 .f32) (a b : ℕ) : EReal :=
  if h : a < 4096 ∧ b < 4096 then Av (ix2 ⟨a, h.1⟩ ⟨b, h.2⟩) else 0

theorem rdT_fin (T : Vec Ideal S4096x8192 .f32) (a : Fin 4096) (k : Fin 8192) : rdT T a.val k.val = T (ix2 a k) :=
  dif_pos ⟨a.isLt, k.isLt⟩
theorem rdD_fin (D : Vec Ideal S1x8192 .f32) (k : Fin 8192) : rdD D k.val = D (ix2 (0 : Fin 1) k) :=
  dif_pos k.isLt
theorem rdA_fin (Av : Vec Ideal S4096x4096 .f32) (a b : Fin 4096) : rdA Av a.val b.val = Av (ix2 a b) :=
  dif_pos ⟨a.isLt, b.isLt⟩

/-! ## The grid's coordinates and the windows' block indices at point t = 64·i + 16·j + k -/

theorem coords_facts : ∀ t : Fin cfg0.N, (grid0.coords t 0).val = t.val / 64 ∧ (grid0.coords t 1).val = t.val / 16 % 4
    ∧ (grid0.coords t 2).val = t.val % 16 :=
  (by decide +kernel : ∀ t : Fin grid0.N, _)

theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val % 16
    ∧ win0_3.index t (0 : Fin 2) = t.val / 64 ∧ win0_3.index t (1 : Fin 2) = t.val / 16 % 4
    ∧ win0_4.index t (0 : Fin 2) = t.val / 64 ∧ win0_4.index t (1 : Fin 2) = t.val / 16 % 4 :=
  (by decide +kernel : ∀ t : Fin grid0.N, _)

/-! ## The windows' blocks, entry by entry -/

theorem lblk_apply (V : (c : Dev nD) → (b : Ref sig .tc) → Buf (Elt Ideal) ((c : Thread nD τ).loc b)) (c : Dev nD) (t : Fin cfg0.N) (p : Fin 1024) (k : Fin 512) :
    lblk V c t (ix2 p k) = rdT (V c main_arg4) (1024 * (t.val / 64) + p.val) (512 * (t.val % 16) + k.val) := by
  have hN : cfg0.N = 256 := N_0
  have ht := t.isLt
  have hp := p.isLt
  have hk := k.isLt
  unfold rdT
  rw [dif_pos ⟨by omega, by omega⟩]
  show V c main_arg4 (((cfg0.win 0).blk t).view.emb (ix2 p k)) = V c main_arg4 _
  refine congrArg (V c main_arg4) ?_
  obtain ⟨e0, e1, -⟩ := idx_facts t
  funext a; apply Fin.ext
  match a with
  | ⟨0, _⟩ => show win0_0.index t (0 : Fin 2) * 1024 + 1 * p.val = 1024 * (t.val / 64) + p.val; rw [e0]; omega
  | ⟨1, _⟩ => show win0_0.index t (1 : Fin 2) * 512 + 1 * k.val = 512 * (t.val % 16) + k.val; rw [e1]; omega

theorem rblk_apply (V : (c : Dev nD) → (b : Ref sig .tc) → Buf (Elt Ideal) ((c : Thread nD τ).loc b)) (c : Dev nD) (t : Fin cfg0.N) (q : Fin 1024) (k : Fin 512) :
    rblk V c t (ix2 q k) = rdT (V c main_arg4) (1024 * (t.val / 16 % 4) + q.val) (512 * (t.val % 16) + k.val) := by
  have hN : cfg0.N = 256 := N_0
  have ht := t.isLt
  have hq := q.isLt
  have hk := k.isLt
  unfold rdT
  rw [dif_pos ⟨by omega, by omega⟩]
  show V c main_arg4 (((cfg0.win 1).blk t).view.emb (ix2 q k)) = V c main_arg4 _
  refine congrArg (V c main_arg4) ?_
  obtain ⟨-, -, e0, e1, -⟩ := idx_facts t
  funext a; apply Fin.ext
  match a with
  | ⟨0, _⟩ => show win0_1.index t (0 : Fin 2) * 1024 + 1 * q.val = 1024 * (t.val / 16 % 4) + q.val; rw [e0]; omega
  | ⟨1, _⟩ => show win0_1.index t (1 : Fin 2) * 512 + 1 * k.val = 512 * (t.val % 16) + k.val; rw [e1]; omega

theorem dblk_apply (V : (c : Dev nD) → (b : Ref sig .tc) → Buf (Elt Ideal) ((c : Thread nD τ).loc b)) (c : Dev nD) (t : Fin cfg0.N) (k : Fin 512) :
    dblk V c t (ix2 (0 : Fin 1) k) = rdD (V c main_v3) (512 * (t.val % 16) + k.val) := by
  have hN : cfg0.N = 256 := N_0
  have ht := t.isLt
  have hk := k.isLt
  unfold rdD
  rw [dif_pos (by omega)]
  show V c main_v3 (((cfg0.win 2).blk t).view.emb (ix2 (0 : Fin 1) k)) = V c main_v3 _
  refine congrArg (V c main_v3) ?_
  obtain ⟨-, -, -, -, e0, e1, -⟩ := idx_facts t
  funext a; apply Fin.ext
  match a with
  | ⟨0, _⟩ => show win0_2.index t (0 : Fin 2) * 1 + 1 * 0 = 0; rw [e0]
  | ⟨1, _⟩ => show win0_2.index t (1 : Fin 2) * 512 + 1 * k.val = 512 * (t.val % 16) + k.val; rw [e1]; omega

theorem vblk_apply (V : (c : Dev nD) → (b : Ref sig .tc) → Buf (Elt Ideal) ((c : Thread nD τ).loc b)) (c : Dev nD) (t : Fin cfg0.N) (p q : Fin 1024) :
    vblk V c t (ix2 p q) = rdA (V c main_arg3) (1024 * (t.val / 64) + p.val) (1024 * (t.val / 16 % 4) + q.val) := by
  have hN : cfg0.N = 256 := N_0
  have ht := t.isLt
  have hp := p.isLt
  have hq := q.isLt
  unfold rdA
  rw [dif_pos ⟨by omega, by omega⟩]
  show V c main_arg3 (((cfg0.win 3).blk t).view.emb (ix2 p q)) = V c main_arg3 _
  refine congrArg (V c main_arg3) ?_
  obtain ⟨-, -, -, -, -, -, e0, e1, -⟩ := idx_facts t
  funext a; apply Fin.ext
  match a with
  | ⟨0, _⟩ => show win0_3.index t (0 : Fin 2) * 1024 + 1 * p.val = 1024 * (t.val / 64) + p.val; rw [e0]; omega
  | ⟨1, _⟩ => show win0_3.index t (1 : Fin 2) * 1024 + 1 * q.val = 1024 * (t.val / 16 % 4) + q.val; rw [e1]; omega

/-! ## The partial sums -/

/-- Column n's contribution to entry (I, J) of T · diag d · Tᵀ. -/
def term (T : Vec Ideal S4096x8192 .f32) (D : Vec Ideal S1x8192 .f32) (I J n : ℕ) : EReal :=
  (rdT T I n * rdD D n) * rdT T J n

/-- The first 512·(m+1) columns are the first 512·m and the m-th block of 512. -/
theorem sum_block (f : ℕ → EReal) (m : ℕ) :
    ∑ k ∈ Finset.range (512 * (m + 1)), f k = ∑ k ∈ Finset.range (512 * m), f k + ∑ k : Fin 512, f (512 * m + k.val) := by
  rw [Nat.mul_succ, Finset.sum_range_add, Finset.sum_range (fun x => f (512 * m + x))]

/-- The accumulate step at point t, entry (p, q): the block of 512 columns number t mod 16 of row 1024·i + p against
    row 1024·j + q is added. -/
theorem step_apply (V : (c : Dev nD) → (b : Ref sig .tc) → Buf (Elt Ideal) ((c : Thread nD τ).loc b)) (c : Dev nD) (t : Fin cfg0.N) (a : Vec Ideal S1024x1024 .f32) (p q : Fin 1024) :
    k0_pay2 (dblk V c t) (lblk V c t) (rblk V c t) a (ix2 p q)
      = a (ix2 p q) + ∑ k : Fin 512, term (V c main_arg4) (V c main_v3) (1024 * (t.val / 64) + p.val) (1024 * (t.val / 16 % 4) + q.val) (512 * (t.val % 16) + k.val) := by
  refine (pay2_apply (dblk V c t) (lblk V c t) (rblk V c t) a p q).trans ?_
  refine congrArg (fun z => a (ix2 p q) + z) ?_
  refine Finset.sum_congr rfl fun k _ => ?_
  rw [lblk_apply V c t p k, dblk_apply V c t k, rblk_apply V c t q k]
  rfl

/-- At the first point of a result block the accumulator holds the first 512 columns' sum. -/
theorem acc_first_apply (V : (c : Dev nD) → (b : Ref sig .tc) → Buf (Elt Ideal) ((c : Thread nD τ).loc b)) (c : Dev nD) (t : Fin cfg0.N) (h : t.val % 16 = 0) (p q : Fin 1024) :
    acc V c t.val t.isLt (ix2 p q)
      = ∑ k ∈ Finset.range (512 * (t.val % 16 + 1)), term (V c main_arg4) (V c main_v3) (1024 * (t.val / 64) + p.val) (1024 * (t.val / 16 % 4) + q.val) k := by
  refine (congrFun (acc_first V c t h) (ix2 p q)).trans ?_
  refine (step_apply V c t _ p q).trans ?_
  rw [pay1_apply, zero_add, h, sum_block, Nat.mul_zero, Finset.range_zero, Finset.sum_empty, zero_add]

/-- After point n the accumulator's entry (p, q) is the sum over the first 512·(n mod 16 + 1) columns. -/
theorem acc_apply (V : (c : Dev nD) → (b : Ref sig .tc) → Buf (Elt Ideal) ((c : Thread nD τ).loc b)) (c : Dev nD) : ∀ (n : ℕ) (hn : n < cfg0.N) (p q : Fin 1024),
    acc V c n hn (ix2 p q)
      = ∑ k ∈ Finset.range (512 * (n % 16 + 1)), term (V c main_arg4) (V c main_v3) (1024 * (n / 64) + p.val) (1024 * (n / 16 % 4) + q.val) k := by
  intro n
  induction n with
  | zero => intro hn p q; exact acc_first_apply V c ⟨0, hn⟩ rfl p q
  | succ n ih =>
    intro hn p q
    by_cases h : (n + 1) % 16 = 0
    · exact acc_first_apply V c ⟨n + 1, hn⟩ h p q
    · refine (congrFun (acc_next V c ⟨n + 1, hn⟩ h) (ix2 p q)).trans ?_
      refine (step_apply V c ⟨n + 1, hn⟩ _ p q).trans ?_
      have ih' := ih (Nat.lt_of_succ_lt hn) p q
      show acc V c n (Nat.lt_of_succ_lt hn) (ix2 p q) + ∑ k : Fin 512, term (V c main_arg4) (V c main_v3) (1024 * ((n + 1) / 64) + p.val) (1024 * ((n + 1) / 16 % 4) + q.val) (512 * ((n + 1) % 16) + k.val) = _
      rw [ih', show (n + 1) / 64 = n / 64 by omega, show (n + 1) / 16 = n / 16 by omega, show (n + 1) % 16 = n % 16 + 1 by omega]
      exact (sum_block _ (n % 16 + 1)).symm

/-! ## From the blocks to the array -/

/-- The result function at an index, over natural-number coordinates: the sum runs over all 8192 columns. -/
theorem adjG_apply (T : Vec Ideal S4096x8192 .f32) (D : Vec Ideal S1x8192 .f32) (Av : Vec Ideal S4096x4096 .f32) (idx : S4096x4096.Idx) :
    adjG T D Av idx
      = (if (idx 0).val = (idx 1).val then 1 else ∑ k ∈ Finset.range 8192, term T D (idx 0).val (idx 1).val k) * rdA Av (idx 0).val (idx 1).val := by
  have e : ∀ (i j : Fin 4096), Cert.Spec.adjA (fun a k => T (ix2 a k)) (fun k => D (ix2 (0 : Fin 1) k)) (fun a b => Av (ix2 a b)) i j
      = (if i.val = j.val then 1 else ∑ k ∈ Finset.range 8192, term T D i.val j.val k) * rdA Av i.val j.val := by
    intro i j
    unfold Cert.Spec.adjA Cert.Spec.mult
    rw [rdA_fin, Finset.sum_range (fun k => term T D i.val j.val k)]
    refine congrArg (fun z => z * Av (ix2 i j)) ?_
    refine (if_congr Fin.ext_iff rfl ?_)
    refine Finset.sum_congr rfl fun k _ => ?_
    unfold term
    rw [rdT_fin, rdD_fin, rdT_fin]
  exact e (idx 0) (idx 1)

/-- What the body stores into the output block at the last point of a result block, entry (p, q): the result
    function at the global index (1024·i + p, 1024·j + q). -/
theorem outb_apply (V : (c : Dev nD) → (b : Ref sig .tc) → Buf (Elt Ideal) ((c : Thread nD τ).loc b)) (c : Dev nD) (t : Fin cfg0.N) (h15 : t.val % 16 = 15) (p q : Fin 1024)
    (idx : S4096x4096.Idx) (hI : (idx 0).val = 1024 * (t.val / 64) + p.val) (hJ : (idx 1).val = 1024 * (t.val / 16 % 4) + q.val) :
    outb V c t (ix2 p q) = adjG (V c main_arg4) (V c main_v3) (V c main_arg3) idx := by
  obtain ⟨c0, c1, -⟩ := coords_facts t
  unfold outb
  refine (pay3_apply (grid0.coords t) (acc V c t.val t.isLt) (vblk V c t) p q).trans ?_
  rw [acc_apply V c t.val t.isLt p q, vblk_apply V c t p q, c0, c1, adjG_apply, hI, hJ, h15]

/-- An index of the result array lies in point t's block iff each coordinate is in the block's range. -/
theorem mem_blk4 (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v6).slice (win0_4.rect t)).set ↔ _
  rw [View.set_slice_whole, Rect.mem_set_unit]
  exact Iff.rfl

/-- What a point that writes back writes is its block of the result function. -/
theorem flushed_eq (V : (c : Dev nD) → (b : Ref sig .tc) → Buf (Elt Ideal) ((c : Thread nD τ).loc b)) (c : Dev nD) (t : Fin cfg0.N) (hf : (cfg0.win 4).flush t = true) :
    (dat V c).flushed 4 t = ((cfg0.win 4).blk t).view.read (Elt Ideal) (adjG (V c main_arg4) (V c main_v3) (V c main_arg3)) := by
  have h15 : t.val % 16 = 15 := (flush0_4 t).mp hf
  show (cfg0.win 4).cut (grid0.coords t) ((dat V c).after 4 t) = _
  rw [after_4]
  show (outb V c t : Vec Ideal S1024x1024 .f32) = fun y : S1024x1024.Idx => adjG (V c main_arg4) (V c main_v3) (V c main_arg3) (((cfg0.win 4).blk t).view.emb y)
  funext y
  obtain ⟨p, q, rfl⟩ : ∃ (p q : Fin 1024), y = ix2 p q := ⟨y 0, y 1, eq_ix2 y⟩
  obtain ⟨-, -, -, -, -, -, -, -, e0, e1⟩ := idx_facts t
  refine outb_apply V c t h15 p q _ ?_ ?_
  · show win0_4.index t (0 : Fin 2) * 1024 + 1 * p.val = 1024 * (t.val / 64) + p.val
    rw [e0]; omega
  · show win0_4.index t (1 : Fin 2) * 1024 + 1 * q.val = 1024 * (t.val / 16 % 4) + q.val
    rw [e1]; omega

/-- Every index of the result lies in the block written back at the last point of its result block. -/
theorem cover4 (i : S4096x4096.Idx) : ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 256 := N_0
  obtain ⟨t, ht⟩ : ∃ t : Fin cfg0.N, t.val = 64 * ((i 0).val / 1024) + 16 * ((i 1).val / 1024) + 15 := ⟨⟨_, by omega⟩, rfl⟩
  obtain ⟨-, -, -, -, -, -, -, -, e0, e1⟩ := idx_facts t
  refine ⟨t, (flush0_4 t).mpr (by omega), ?_⟩
  rw [mem_blk4]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- After the region the result array holds adjG of the arrays found at entry. -/
theorem arr_adjA (V : (c : Dev nD) → (b : Ref sig .tc) → Buf (Elt Ideal) ((c : Thread nD τ).loc b)) (c : Dev nD) :
    (dat (F := Ideal) V c).arrAt 4 cfg0.N = adjG (V c main_arg4) (V c main_v3) (V c main_arg3) :=
  (dat V c).arrAt_eq_of_cover 4 (adjG (V c main_arg4) (V c main_v3) (V c main_arg3)) (fun t hf => flushed_eq V c t hf) cover4

end Cert.KernelIdeal.AdjA

end
-- ==== Proof.KI.KernelValue.lean ====
/-
  The kernel program's result over the extended reals is the specification's  out : the second call leaves
  Σ_k A[i, k] · H[k, n] + b[n]  with A what the first call left — (1 on the diagonal, Σ_k (T[i,k] · d[k]) · T[j,k]
  off it) · adj_v —, H and b what the host operations left — H_v · W and the bias row —, and d the host's row
  Σ_f H_e[k, f] · p[f].
-/
import proofs.«131495_j12627203850541_1_alg».proof.Proof.KI.Kept
import proofs.«131495_j12627203850541_1_alg».proof.Proof.KI.HostValue
import proofs.«131495_j12627203850541_1_alg».proof.Proof.KI.FinalValue
import proofs.«131495_j12627203850541_1_alg».proof.Proof.KI.AdjAValue

noncomputable section

namespace Cert.KernelIdeal.Whole

open Cert.KernelIdeal Cert.KernelIdeal.Gen
open Idealize.ShloMosaic Idealize.ShloMosaic.TcCoe Idealize.SL.Sem
open Idealize.ShloMosaic.ValueIdx
open scoped BigOperators

variable {F : FTy → Type} [FloatOps F]

/-! ## The result, over the extended reals -/

/-- The result as a function of the launch memory's argument arrays. -/
def outG (m : (ℓ : Loc nD τ sig) → Buf (Elt Ideal) ℓ) (c : Dev nD) : Vec Ideal S4096x128 .f32 := fun idx =>
  Cert.Spec.out (fun a b => (m ((c : Thread nD τ).loc main_arg0) : S4096x128.Idx → EReal) (ix2 a b))
    (fun a b => (m ((c : Thread nD τ).loc main_arg1) : S8192x64.Idx → EReal) (ix2 a b))
    (fun a b => (m ((c : Thread nD τ).loc main_arg3) : S4096x4096.Idx → EReal) (ix2 a b))
    (fun a b => (m ((c : Thread nD τ).loc main_arg4) : S4096x8192.Idx → EReal) (ix2 a b))
    (fun a b => (m ((c : Thread nD τ).loc main_arg5) : S128x128.Idx → EReal) (ix2 a b))
    (fun b => (m ((c : Thread nD τ).loc main_arg6) : S1x64.Idx → EReal) (ix2 (0 : Fin 1) b))
    (fun b => (m ((c : Thread nD τ).loc main_arg7) : S128.Idx → EReal) (ix1 b))
    (idx 0) (idx 1)

/-- The kernel program's result buffer ends at outG of the launch memory. -/
theorem result_eq (m : (ℓ : Loc nD τ sig) → Buf (Elt Ideal) ℓ) (c : Dev nD) :
    W3 (F := Ideal) m c main_v7 = outG m c := by
  rw [W3_v7, Final.arr_final]
  have h6 : V2 (F := Ideal) m c main_v6 = AdjA.adjG (V1 m c main_arg4) (V1 m c main_v3) (V1 m c main_arg3) :=
    (W2_v6 m c).trans (AdjA.arr_adjA (V1 m) c)
  have h4 : V2 (F := Ideal) m c main_v4 = V1 m c main_v4 := W2_of_ne m c main_v4 (by decide)
  have h5 : V2 (F := Ideal) m c main_v5 = V1 m c main_v5 := W2_of_ne m c main_v5 (by decide)
  have hT : V1 (F := Ideal) m c main_arg4 = m ((c : Thread nD τ).loc main_arg4) := W1_of m c main_arg4 (by decide)
  have hA : V1 (F := Ideal) m c main_arg3 = m ((c : Thread nD τ).loc main_arg3) := W1_of m c main_arg3 (by decide)
  rw [h6, h4, h5, hT, hA]
  funext idx
  unfold Final.finalG outG Cert.Spec.out
  have hd : (fun k : Fin 8192 => (V1 (F := Ideal) m c main_v3 : S1x8192.Idx → EReal) (ix2 (0 : Fin 1) k))
      = Cert.Spec.dvec (fun a b => (m ((c : Thread nD τ).loc main_arg1) : S8192x64.Idx → EReal) (ix2 a b))
          (fun b => (m ((c : Thread nD τ).loc main_arg6) : S1x64.Idx → EReal) (ix2 (0 : Fin 1) b)) :=
    funext fun k => HostValue.d_row m c k
  refine congrArg₂ (· + ·) (Finset.sum_congr rfl fun k _ => ?_) (HostValue.bias_row m c (idx 1))
  refine congrArg₂ (· * ·) ?_ (HostValue.hvw_at m c k (idx 1))
  unfold AdjA.adjG
  rw [hd]

end Cert.KernelIdeal.Whole

end
-- ==== Proof.RefValue.lean ====
/-
  The reference's result, read index by index, is the specification's  out : at (i, n) it is
  Σ_k adjA[i, k] · hvw[k, n] + bias[n], with the reference's mask  eye + (1 − eye) · mult  read as
  "1 on the diagonal, mult off it" (Spec.mask_eq).
-/
import proofs.«131495_j12627203850541_1_alg».proof.Proof.Gen.ReferenceIdeal.Run
import proofs.«131495_j12627203850541_1_alg».proof.Proof.Gen.ReferenceIdeal.Read
import proofs.«131495_j12627203850541_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-- The reference's vector d, read at e: the sum over f of H_e[e, f] · p[f]. The reshape from 8192×1 to 8192 reads
    row e (e / 1 = e), and the transposed p is read back at (0, f). -/
theorem d_apply (x1 : (⟨S8192x64, .f32⟩ : BufTy).Contents (Elt Ideal)) (x6 : (⟨S1x64, .f32⟩ : BufTy).Contents (Elt Ideal))
    (e : Fin 8192) :
    Cert.ReferenceIdeal.Read.val_main_v2 (F := Ideal) x1 x6 (ix1 e)
      = Cert.Spec.dvec (fun a b => x1 (ix2 a b)) (fun b => x6 (ix2 (0 : Fin 1) b)) e := by
  rw [Read.val_main_v2_apply, Read.val_main_v1_apply]
  unfold Cert.Spec.dvec
  refine Finset.sum_congr rfl fun f _ => ?_
  rw [Read.val_main_v0_apply]
  have hl : Read.lidx_main_v1 (Read.idx_main_v2 (ix1 e)) f = ix2 e f :=
    funext fun a => match a with
      | ⟨0, _⟩ => Fin.ext (Nat.div_one _)
      | ⟨1, _⟩ => rfl
  have hr : Read.idx_main_v0 (Read.ridx_main_v1 (Read.idx_main_v2 (ix1 e)) f) = ix2 (0 : Fin 1) f :=
    funext fun a => match a with
      | ⟨0, _⟩ => rfl
      | ⟨1, _⟩ => rfl
  rw [hl, hr]

/-- The reference's product (T · d) Tᵀ, read at (a, b): the sum over k of (T[a, k] · d_k) · T[b, k]. The two
    broadcasts of d read it at k whatever the row, and the transpose of T reads T at (b, k). -/
theorem mult_apply (x1 : (⟨S8192x64, .f32⟩ : BufTy).Contents (Elt Ideal)) (x4 : (⟨S4096x8192, .f32⟩ : BufTy).Contents (Elt Ideal))
    (x6 : (⟨S1x64, .f32⟩ : BufTy).Contents (Elt Ideal)) (a b : Fin 4096) :
    Cert.ReferenceIdeal.Read.val_main_v7 (F := Ideal) x1 x4 x6 (ix2 a b)
      = Cert.Spec.mult (fun a b => x4 (ix2 a b))
          (Cert.Spec.dvec (fun a b => x1 (ix2 a b)) (fun b => x6 (ix2 (0 : Fin 1) b))) a b := by
  rw [Read.val_main_v7_apply]
  unfold Cert.Spec.mult
  refine Finset.sum_congr rfl fun k _ => ?_
  have hl : Read.lidx_main_v7 (ix2 a b) k = ix2 a k :=
    funext fun c => match c with
      | ⟨0, _⟩ => rfl
      | ⟨1, _⟩ => rfl
  have hr : Read.idx_main_v6 (Read.ridx_main_v7 (ix2 a b) k) = ix2 b k :=
    funext fun c => match c with
      | ⟨0, _⟩ => rfl
      | ⟨1, _⟩ => rfl
  have hd : Read.idx_main_v3 (Read.idx_main_v4 (ix2 a k)) = ix1 k :=
    funext fun c => match c with
      | ⟨0, _⟩ => rfl
  rw [hl, Read.val_main_v5_apply, Read.val_main_v4_apply, Read.val_main_v3_apply, hd, d_apply,
    Read.val_main_v6_apply, hr]
  rfl

/-- The reference's identity mask, read at (a, b): the two coordinates are below 4096, so their 32-bit words are
    equal exactly when the coordinates are (no wrap-around below 2³²); the comparison's bit, read as an unsigned
    integer, is then 1 on the diagonal and 0 off it. -/
theorem eye_apply (a b : Fin 4096) :
    Cert.ReferenceIdeal.Read.val_main_v13 (F := Ideal) (ix2 a b) = if a = b then (1 : EReal) else 0 := by
  rw [Read.val_main_v13_apply, Read.val_main_v12_apply, Read.val_main_v11_apply, Read.val_main_v8_apply,
    Read.val_main_v9_apply, Read.val_main_v10_apply, Read.val_main_c_apply]
  show (((IntOp.cmpi .eq (IntOp.addi (BitVec.ofNat 32 a.val) 0#32) (BitVec.ofNat 32 b.val)).toNat : ℝ) : EReal) = _
  have hw : IntOp.cmpi .eq (IntOp.addi (BitVec.ofNat 32 a.val) 0#32) (BitVec.ofNat 32 b.val)
      = if a = b then 1#1 else 0#1 := by
    unfold IntOp.cmpi IntOp.addi
    rw [BitVec.add_zero]
    by_cases h : a = b
    · subst h
      simp
    · rw [if_neg h]
      have hne : (BitVec.ofNat 32 a.val == BitVec.ofNat 32 b.val) = false := by
        rw [beq_eq_false_iff_ne]
        intro hc
        have hv := congrArg BitVec.toNat hc
        simp only [BitVec.toNat_ofNat] at hv
        have ha := a.isLt
        have hb := b.isLt
        apply h
        apply Fin.ext
        omega
      simp [hne]
  rw [hw]
  by_cases h : a = b
  · simp [h]
  · simp [h]

/-- The reference's adjusted adjacency, read at (a, b): (eye + (1 − eye) · mult) · adj_v, which is
    (1 on the diagonal, mult off it) · adj_v. -/
theorem adjA_apply (x1 : (⟨S8192x64, .f32⟩ : BufTy).Contents (Elt Ideal)) (x3 : (⟨S4096x4096, .f32⟩ : BufTy).Contents (Elt Ideal))
    (x4 : (⟨S4096x8192, .f32⟩ : BufTy).Contents (Elt Ideal)) (x6 : (⟨S1x64, .f32⟩ : BufTy).Contents (Elt Ideal))
    (a b : Fin 4096) :
    Cert.ReferenceIdeal.Read.val_main_v18 (F := Ideal) x1 x3 x4 x6 (ix2 a b)
      = Cert.Spec.adjA (fun a b => x4 (ix2 a b))
          (Cert.Spec.dvec (fun a b => x1 (ix2 a b)) (fun b => x6 (ix2 (0 : Fin 1) b)))
          (fun a b => x3 (ix2 a b)) a b := by
  rw [Read.val_main_v18_apply, Read.val_main_v17_apply, Read.val_main_v16_apply, Read.val_main_v15_apply,
    Read.val_main_v14_apply, Read.val_main_cst_apply, eye_apply, mult_apply]
  simp only [Ideal.mulf_def, Ideal.addf_def, Ideal.subf_def, Ideal.ofBits_def, Cert.Spec.ofBits_one]
  unfold Cert.Spec.adjA
  rw [Cert.Spec.mask_eq]

/-- The reference's H_v · W, read at (k, n): the sum over f of H_v[k, f] · W[f, n]. -/
theorem hvw_apply (x0 : (⟨S4096x128, .f32⟩ : BufTy).Contents (Elt Ideal)) (x5 : (⟨S128x128, .f32⟩ : BufTy).Contents (Elt Ideal))
    (k : Fin 4096) (n : Fin 128) :
    Cert.ReferenceIdeal.Read.val_main_v19 (F := Ideal) x0 x5 (ix2 k n)
      = Cert.Spec.hvw (fun a b => x0 (ix2 a b)) (fun a b => x5 (ix2 a b)) k n := by
  rw [Read.val_main_v19_apply]
  unfold Cert.Spec.hvw
  refine Finset.sum_congr rfl fun f _ => ?_
  have hl : Read.lidx_main_v19 (ix2 k n) f = ix2 k f :=
    funext fun c => match c with
      | ⟨0, _⟩ => rfl
      | ⟨1, _⟩ => rfl
  have hr : Read.ridx_main_v19 (ix2 k n) f = ix2 f n :=
    funext fun c => match c with
      | ⟨0, _⟩ => rfl
      | ⟨1, _⟩ => rfl
  rw [hl, hr]

/-- The reference's result, read at (p, q): the sum over k of adjA[p, k] · hvw[k, q], plus the bias at q (its two
    broadcasts read it at q whatever the row). -/
theorem out_apply (x0 : (⟨S4096x128, .f32⟩ : BufTy).Contents (Elt Ideal)) (x1 : (⟨S8192x64, .f32⟩ : BufTy).Contents (Elt Ideal))
    (x3 : (⟨S4096x4096, .f32⟩ : BufTy).Contents (Elt Ideal)) (x4 : (⟨S4096x8192, .f32⟩ : BufTy).Contents (Elt Ideal))
    (x5 : (⟨S128x128, .f32⟩ : BufTy).Contents (Elt Ideal)) (x6 : (⟨S1x64, .f32⟩ : BufTy).Contents (Elt Ideal))
    (x7 : (⟨S128, .f32⟩ : BufTy).Contents (Elt Ideal)) (p : Fin 4096) (q : Fin 128) :
    Cert.ReferenceIdeal.Read.val_main_v23 (F := Ideal) x0 x1 x3 x4 x5 x6 x7 (ix2 p q)
      = Cert.Spec.out (fun a b => x0 (ix2 a b)) (fun a b => x1 (ix2 a b)) (fun a b => x3 (ix2 a b)) (fun a b => x4 (ix2 a b))
          (fun a b => x5 (ix2 a b)) (fun b => x6 (ix2 (0 : Fin 1) b)) (fun b => x7 (ix1 b)) p q := by
  rw [Read.val_main_v23_apply, Read.val_main_v20_apply, Read.val_main_v22_apply, Read.val_main_v21_apply]
  have hb : Read.idx_main_v21 (Read.idx_main_v22 (ix2 p q)) = ix1 q :=
    funext fun c => match c with
      | ⟨0, _⟩ => rfl
  rw [hb, Ideal.addf_def]
  unfold Cert.Spec.out
  congr 1
  refine Finset.sum_congr rfl fun k _ => ?_
  have hl : Read.lidx_main_v20 (ix2 p q) k = ix2 p k :=
    funext fun c => match c with
      | ⟨0, _⟩ => rfl
      | ⟨1, _⟩ => rfl
  have hr : Read.ridx_main_v20 (ix2 p q) k = ix2 k q :=
    funext fun c => match c with
      | ⟨0, _⟩ => rfl
      | ⟨1, _⟩ => rfl
  rw [hl, hr, adjA_apply, hvw_apply]

/-- The reference's composed stage for its result is the specification, at every index. -/
theorem ref_eq (x0 : (⟨S4096x128, .f32⟩ : BufTy).Contents (Elt Ideal)) (x1 : (⟨S8192x64, .f32⟩ : BufTy).Contents (Elt Ideal))
    (x3 : (⟨S4096x4096, .f32⟩ : BufTy).Contents (Elt Ideal)) (x4 : (⟨S4096x8192, .f32⟩ : BufTy).Contents (Elt Ideal))
    (x5 : (⟨S128x128, .f32⟩ : BufTy).Contents (Elt Ideal)) (x6 : (⟨S1x64, .f32⟩ : BufTy).Contents (Elt Ideal))
    (x7 : (⟨S128, .f32⟩ : BufTy).Contents (Elt Ideal)) (i : S4096x128.Idx) :
    Cert.ReferenceIdeal.Read.val_main_v23 (F := Ideal) x0 x1 x3 x4 x5 x6 x7 i
      = Cert.Spec.out (fun a b => x0 (ix2 a b)) (fun a b => x1 (ix2 a b)) (fun a b => x3 (ix2 a b)) (fun a b => x4 (ix2 a b))
          (fun a b => x5 (ix2 a b)) (fun b => x6 (ix2 (0 : Fin 1) b)) (fun b => x7 (ix1 b)) (i 0) (i 1) := by
  obtain ⟨p, q, rfl⟩ : ∃ (p : Fin 4096) (q : Fin 128), i = ix2 p q := ⟨i 0, i 1, eq_ix2 i⟩
  exact out_apply x0 x1 x3 x4 x5 x6 x7 p q

end Cert.ReferenceIdeal.RefValue

end
-- ==== Proof.lean ====
/-
  The certificate's claims for the graph-convolution kernel (node layer):

    out = adjusted_A · (H_v · W) + bias,   adjusted_A = (1 on the diagonal, (T · diag d) · Tᵀ off it) ∘ adj_v,
    d = H_e · pᵀ.

  Frames: the kernel program — six host operations and two kernel calls — terminates from every memory and leaves
  its arguments as launched, at the word level and over the extended reals alike (the same run, read at either
  float instance); the reference is host operations only.
  Idealization: nothing was rewritten, so there is nothing to preserve.
  Equivalence over the extended reals: both results are the specification's  out  at every index — the kernel's by
  following the accumulators of its two calls block by block, the reference's by reading its operations one at a
  time — and the second result, H_e, is returned untouched by both.
-/
import proofs.«131495_j12627203850541_1_alg».proof.Defs
import proofs.«131495_j12627203850541_1_alg».proof.Proof.Gen.Kernel
import proofs.«131495_j12627203850541_1_alg».proof.Proof.Gen.KernelIdeal
import proofs.«131495_j12627203850541_1_alg».proof.Proof.Gen.ReferenceIdeal
import proofs.«131495_j12627203850541_1_alg».proof.Proof.Gen.Pre_finite_inputs
import proofs.«131495_j12627203850541_1_alg».proof.Proof.Gen.ReferenceIdeal.Run
import proofs.«131495_j12627203850541_1_alg».proof.Proof.Gen.ReferenceIdeal.Read
import proofs.«131495_j12627203850541_1_alg».proof.Proof.K.Kept
import proofs.«131495_j12627203850541_1_alg».proof.Proof.KI.Kept
import proofs.«131495_j12627203850541_1_alg».proof.Proof.KI.KernelValue
import proofs.«131495_j12627203850541_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Whole.frame (F := Bits) m ρ

/-- So does the idealized program, over the extended reals. -/
theorem frame_ki : Cert.frame_KernelIdeal := fun m ρ _ => Cert.KernelIdeal.Whole.frame (F := Ideal) m ρ

/-- The reference is host operations only: its run, with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's out in their first result and H_e in their second. -/
theorem algebraic : Cert.algebraic_KernelIdeal_ReferenceIdeal := by
  intro m ρ m' ρ' _ hagree
  refine ⟨fun c => Cert.KernelIdeal.Whole.outG m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Whole.run_main (F := Ideal) m ρ)
    exact ⟨(h c _ (Cert.KernelIdeal.Whole.mem_uc Cert.KernelIdeal.main_v7 (by decide))).trans (Cert.KernelIdeal.Whole.result_eq m c),
      (h c _ (Cert.KernelIdeal.Whole.mem_uc Cert.KernelIdeal.main_arg1 (by decide))).trans (Cert.KernelIdeal.Whole.W3_arg m c Cert.KernelIdeal.main_arg1 (by decide) (by decide) (by decide)),
      (h c _ (Cert.KernelIdeal.Whole.mem_uc Cert.KernelIdeal.main_arg0 (by decide))).trans (Cert.KernelIdeal.Whole.W3_arg m c Cert.KernelIdeal.main_arg0 (by decide) (by decide) (by decide)),
      (h c _ (Cert.KernelIdeal.Whole.mem_uc Cert.KernelIdeal.main_arg1 (by decide))).trans (Cert.KernelIdeal.Whole.W3_arg m c Cert.KernelIdeal.main_arg1 (by decide) (by decide) (by decide)),
      (h c _ (Cert.KernelIdeal.Whole.mem_uc Cert.KernelIdeal.main_arg2 (by decide))).trans (Cert.KernelIdeal.Whole.W3_arg m c Cert.KernelIdeal.main_arg2 (by decide) (by decide) (by decide)),
      (h c _ (Cert.KernelIdeal.Whole.mem_uc Cert.KernelIdeal.main_arg3 (by decide))).trans (Cert.KernelIdeal.Whole.W3_arg m c Cert.KernelIdeal.main_arg3 (by decide) (by decide) (by decide)),
      (h c _ (Cert.KernelIdeal.Whole.mem_uc Cert.KernelIdeal.main_arg4 (by decide))).trans (Cert.KernelIdeal.Whole.W3_arg m c Cert.KernelIdeal.main_arg4 (by decide) (by decide) (by decide)),
      (h c _ (Cert.KernelIdeal.Whole.mem_uc Cert.KernelIdeal.main_arg5 (by decide))).trans (Cert.KernelIdeal.Whole.W3_arg m c Cert.KernelIdeal.main_arg5 (by decide) (by decide) (by decide)),
      (h c _ (Cert.KernelIdeal.Whole.mem_uc Cert.KernelIdeal.main_arg6 (by decide))).trans (Cert.KernelIdeal.Whole.W3_arg m c Cert.KernelIdeal.main_arg6 (by decide) (by decide) (by decide)),
      (h c _ (Cert.KernelIdeal.Whole.mem_uc Cert.KernelIdeal.main_arg7 (by decide))).trans (Cert.KernelIdeal.Whole.W3_arg m c Cert.KernelIdeal.main_arg7 (by decide) (by decide) (by decide))⟩
  · refine (θ_run Cert.ReferenceIdeal.defs _ _).mono (fun r h c => ?_) (Cert.ReferenceIdeal.Value.run (F := Ideal) m' ρ')
    obtain ⟨h23, h1, hrest⟩ := h c
    refine ⟨?_, ?_, hrest⟩
    · rw [h23, Cert.ReferenceIdeal.Read.val_main_v23_eq]
      funext idx
      rw [Cert.ReferenceIdeal.RefValue.ref_eq]
      unfold Cert.KernelIdeal.Whole.outG
      rw [(hagree c).1, (hagree c).2.1, (hagree c).2.2.2.1, (hagree c).2.2.2.2.1, (hagree c).2.2.2.2.2.1,
        (hagree c).2.2.2.2.2.2.1, (hagree c).2.2.2.2.2.2.2]
    · rw [h1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
